-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S1032x512 : Shape := ⟨2, ![1032, 512]⟩
abbrev S256x128 : Shape := ⟨2, ![256, 128]⟩
abbrev S1x128 : Shape := ⟨2, ![1, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1032x512 : S_.BroadcastsInDim S1032x512 (![] : Fin 0 → Fin S1032x512.rank)
  reducesTo_S1032x512_S_d0_1 : S1032x512.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S4096x512 .f32) (main_arg1 : FVec F S4096x512 .f32) (main_arg2 : FVec F S1032x512 .f32) (main_arg3 : FVec F S256x128 .f32) (main_arg4 : FVec F S1x128 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S1032x512 .f32 := Host.absf main_arg2
  let main_cst_2 : FVec F S_ .f32 := constant S_ .f32 0x7F800000#32
  let main_v10 : FVec F S1032x512 .f32 := broadcastInDim S1032x512 ![] bcast_S_S1032x512 main_cst_2
  let main_v11 : IVec S1032x512 1 := cmpf .olt main_v9 main_v10
  let main_c_3 : IVec S_ 1 := constantI S_ 1 1#1
  let main_v12 : IVec S_ 1 := (fun x v => Host.reduce IntOp.andi x v reducesTo_S1032x512_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S4096x512 : Shape := ⟨2, ![4096, 512]⟩
abbrev S1032x512 : Shape := ⟨2, ![1032, 512]⟩
abbrev S256x128 : Shape := ⟨2, ![256, 128]⟩
abbrev S1x128 : Shape := ⟨2, ![1, 128]⟩
abbrev S4096x128 : Shape := ⟨2, ![4096, 128]⟩
abbrev S512x512 : Shape := ⟨2, ![512, 512]⟩
abbrev S512x128 : Shape := ⟨2, ![512, 128]⟩
abbrev S512x1032 : Shape := ⟨2, ![512, 1032]⟩
abbrev S512x8 : Shape := ⟨2, ![512, 8]⟩
abbrev S512x256 : Shape := ⟨2, ![512, 256]⟩
abbrev S512 : Shape := ⟨1, ![512]⟩
abbrev S512x1 : Shape := ⟨2, ![512, 1]⟩
abbrev S4096x100 : Shape := ⟨2, ![4096, 100]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1032x512, .f32⟩
  | .hbm, ⟨3, _⟩ => ⟨S256x128, .f32⟩
  | .hbm, ⟨4, _⟩ => ⟨S1x128, .f32⟩
  | .hbm, ⟨5, _⟩ => ⟨S4096x128, .f32⟩
  | .hbm, ⟨6, _⟩ => ⟨S4096x100, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1032x512, .f32⟩
  | .local _ .vmem, ⟨5, _⟩ => ⟨S256x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x1032, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1032x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S512x512_S512x512_0_0 : ∀ a, (![0, 0] : Fin 2 → Nat) a + S512x512.size a ≤ S512x512.size a
  h_S512x512 : 0 < S512x512.numel
  inb_S512x1032_S512x512_0_0 : ∀ a, (![0, 0] : Fin 2 → Nat) a + S512x512.size a ≤ S512x1032.size a
  shapeCasts_S512x512_S512x512 : S512x512.ShapeCasts S512x512
  inb_S512x1032_S512x512_0_512 : ∀ a, (![0, 512] : Fin 2 → Nat) a + S512x512.size a ≤ S512x1032.size a
  iota_S512x8_d1_w32 : S512x8.Iotas .tc 32 [1]
  inb_S512x1032_S512x8_0_1024 : ∀ a, (![0, 1024] : Fin 2 → Nat) a + S512x8.size a ≤ S512x1032.size a
  h_S512x8 : 0 < S512x8.numel
  shapeCasts_S512x8_S512x8 : S512x8.ShapeCasts S512x8
  inb_S512x1032_S512x1032_0_0 : ∀ a, (![0, 0] : Fin 2 → Nat) a + S512x1032.size a ≤ S512x1032.size a
  h_S512x1032 : 0 < S512x1032.numel
  inb_S1032x512_S1032x512_0_0 : ∀ a, (![0, 0] : Fin 2 → Nat) a + S1032x512.size a ≤ S1032x512.size a
  h_S1032x512 : 0 < S1032x512.numel
  slices_S512x512_o0_0_S512x256 : S512x512.Slices ![0, 0] S512x256
  slices_S512x512_o0_256_S512x256 : S512x512.Slices ![0, 256] S512x256
  reduces_S512x256_S512 : S512x256.Reduces [1] S512
  shapeCasts_S512_S512x1 : S512.ShapeCasts S512x1
  broadcasts_S512x1_S512x256 : S512x1.Broadcasts S512x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S512x128 : S1x128.Broadcasts S512x128
  reduces_S512x128_S512 : S512x128.Reduces [1] S512
  broadcasts_S512x1_S512x128 : S512x1.Broadcasts S512x128
  inb_S512x128_S512x128_0_0 : ∀ a, (![0, 0] : Fin 2 → Nat) a + S512x128.size a ≤ S512x128.size a
  h_S512x128 : 0 < S512x128.numel
  slices_S4096x128_S4096x100_0_0 : S4096x128.Slices ![0, 0] S4096x100
  dot_S512x1032_S1032x512_S512x512_1_0_0_1_n_n_wf : DotDims.WF S512x1032 S1032x512 S512x512 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1032x512.size a ≤ S1032x512.size a
  hwx0_2 : ∀ i : grid0.Coords, EltTy.bits .f32 = 32 ∨ (Rect.block (s := S1032x512) S1032x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)

variable [Facts₀]

def dot_S512x1032_S1032x512_S512x512_1_0_0_1_n_n : DotDims S512x1032 S1032x512 S512x512 where
  lhsContracting := [1]
  rhsContracting := [0]
  lhsNonContracting := [0]
  rhsNonContracting := [1]
  lhsBatch := []
  rhsBatch := []
  wf := dot_S512x1032_S1032x512_S512x512_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1032x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x512 : Shape := ⟨2, ![4096, 512]⟩
abbrev S1032x512 : Shape := ⟨2, ![1032, 512]⟩
abbrev S256x128 : Shape := ⟨2, ![256, 128]⟩
abbrev S1x128 : Shape := ⟨2, ![1, 128]⟩
abbrev S_ : Shape := ⟨0, ![]⟩
abbrev S4096x1 : Shape := ⟨2, ![4096, 1]⟩
abbrev S4096x7 : Shape := ⟨2, ![4096, 7]⟩
abbrev S4096x1032 : Shape := ⟨2, ![4096, 1032]⟩
abbrev S4096x128 : Shape := ⟨2, ![4096, 128]⟩
abbrev S4096x256 : Shape := ⟨2, ![4096, 256]⟩
abbrev S4096 : Shape := ⟨1, ![4096]⟩
abbrev S4096x100 : Shape := ⟨2, ![4096, 100]⟩

abbrev nBuf : Space → Nat
  | .hbm => 12
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1032x512, .f32⟩
  | .hbm, ⟨3, _⟩ => ⟨S256x128, .f32⟩
  | .hbm, ⟨4, _⟩ => ⟨S1x128, .f32⟩
  | .hbm, ⟨5, _⟩ => ⟨S_, .f32⟩
  | .hbm, ⟨6, _⟩ => ⟨S4096x1, .f32⟩
  | .hbm, ⟨7, _⟩ => ⟨S_, .f32⟩
  | .hbm, ⟨8, _⟩ => ⟨S4096x7, .f32⟩
  | .hbm, ⟨9, _⟩ => ⟨S4096x1032, .f32⟩
  | .hbm, ⟨10, _⟩ => ⟨S4096x128, .f32⟩
  | .hbm, ⟨11, _⟩ => ⟨S4096x100, .f32⟩
  | .local _ .vmem, ⟨0, _⟩ => ⟨S4096x1032, .f32⟩
  | .local _ .vmem, ⟨1, _⟩ => ⟨S1032x512, .f32⟩
  | .local _ .vmem, ⟨2, _⟩ => ⟨S256x128, .f32⟩
  | .local _ .vmem, ⟨3, _⟩ => ⟨S1x128, .f32⟩
  | .local _ .vmem, ⟨4, _⟩ => ⟨S4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1032 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1032x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S4096x1 : S_.BroadcastsInDim S4096x1 (![] : Fin 0 → Fin S4096x1.rank)
  bcast_S_S4096x7 : S_.BroadcastsInDim S4096x7 (![] : Fin 0 → Fin S4096x7.rank)
  concatenates_S4096x512_S4096x512_S4096x1_S4096x7_S4096x1032_d1 : Shape.Concatenates [S4096x512, S4096x512, S4096x1, S4096x7] S4096x1032 1
  inb_S4096x1032_S4096x1032_0_0 : ∀ a, (![0, 0] : Fin 2 → Nat) a + S4096x1032.size a ≤ S4096x1032.size a
  h_S4096x1032 : 0 < S4096x1032.numel
  shapeCasts_S4096x1032_S4096x1032 : S4096x1032.ShapeCasts S4096x1032
  inb_S1032x512_S1032x512_0_0 : ∀ a, (![0, 0] : Fin 2 → Nat) a + S1032x512.size a ≤ S1032x512.size a
  h_S1032x512 : 0 < S1032x512.numel
  slices_S4096x512_o0_0_S4096x256 : S4096x512.Slices ![0, 0] S4096x256
  slices_S4096x512_o0_256_S4096x256 : S4096x512.Slices ![0, 256] S4096x256
  reduces_S4096x256_S4096 : S4096x256.Reduces [1] S4096
  shapeCasts_S4096_S4096x1 : S4096.ShapeCasts S4096x1
  broadcasts_S4096x1_S4096x256 : S4096x1.Broadcasts S4096x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S4096x128 : S1x128.Broadcasts S4096x128
  reduces_S4096x128_S4096 : S4096x128.Reduces [1] S4096
  broadcasts_S4096x1_S4096x128 : S4096x1.Broadcasts S4096x128
  inb_S4096x128_S4096x128_0_0 : ∀ a, (![0, 0] : Fin 2 → Nat) a + S4096x128.size a ≤ S4096x128.size a
  h_S4096x128 : 0 < S4096x128.numel
  slices_S4096x128_S4096x100_0_0 : S4096x128.Slices ![0, 0] S4096x100
  dot_S4096x1032_S1032x512_S4096x512_1_0_0_1_n_n_wf : DotDims.WF S4096x1032 S1032x512 S4096x512 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x1032.size a ≤ S4096x1032.size a
  hwx0_0 : ∀ i : grid0.Coords, EltTy.bits .f32 = 32 ∨ (Rect.block (s := S4096x1032) S4096x1032.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1032x512.size a ≤ S1032x512.size a
  hwx0_1 : ∀ i : grid0.Coords, EltTy.bits .f32 = 32 ∨ (Rect.block (s := S1032x512) S1032x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x128.size a
  hwx0_4 : ∀ i : grid0.Coords, EltTy.bits .f32 = 32 ∨ (Rect.block (s := S4096x128) S4096x128.size (cc0_transform_4 i) (hinb0_4 i)).WholeWords (EltTy.packing .f32)

variable [Facts₀]

def dot_S4096x1032_S1032x512_S4096x512_1_0_0_1_n_n : DotDims S4096x1032 S1032x512 S4096x512 where
  lhsContracting := [1]
  rhsContracting := [0]
  lhsNonContracting := [0]
  rhsNonContracting := [1]
  lhsBatch := []
  rhsBatch := []
  wf := dot_S4096x1032_S1032x512_S4096x512_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v2) S4096x1032.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1032x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.RefFrame.lean ====
/-
  The reference program's run: @main is five host operations (a one and a zero broadcast to a column and to
  seven columns, and the two feature arrays, the ones and the zeros laid side by side into the 4096 × 1032 slab), one
  pallas_call on a one-point grid whose body loads its four input blocks whole, computes, and stores its output block
  whole, and one host slice after it. This module gives the proof data of that one pipeline (each input's staging
  buffer at its block, the output's at the body's one store read back), the body's triple, the launch and the frame.
-/
import proofs.«130960_g2000402938320646_pallasbulk_333_3_alg».proof.Proof.Gen.ReferenceIdeal.Launch
import proofs.«130960_g2000402938320646_pallasbulk_333_3_alg».proof.Proof.Gen.ReferenceIdeal.Skeleton
import proofs.«130960_g2000402938320646_pallasbulk_333_3_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the five host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (Gen.hostOps0 : List (HloOp τ sig (Elt F))).Forall fun op => op.fresh = ∅ := by
  simp only [List.Forall]; repeat' constructor
theorem hostOps1_fresh : (Gen.hostOps1 : List (HloOp τ sig (Elt F))).Forall fun op => op.fresh = ∅ := by
  simp only [List.Forall]; repeat' constructor

/-- @main is the five host operations, the region, and the slice: it reduces to the region continued by the slice. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq Gen.hostOps1]) :=
  Pipeline.hmain_around cfgs 0 defs₀ 𝒱₀ m main [Gen.hostOps0] [Gen.hostOps1] (by simp only [List.Forall]; exact Gen.hostOps0_sub)
    (by simp only [List.Forall]; exact hostOps0_fresh) Gen.main_chain

/-- The slice after the region touches the pipeline's arrays and the bypassing buffers only. -/
theorem sfx_sub : ∀ ops ∈ ([Gen.hostOps1] : List (List (HloOp τ sig (Elt F)))), ∀ op ∈ ops,
    op.bufs ⊆ Pipeline.tailRefs sig Pipeline.Prefetch.none spec0 := by
  rw [Pipeline.tailRefs_none spec0 Gen.launch0.win.arr_unscoped]
  intro ops hops op hop
  simp only [List.mem_cons, List.mem_nil_iff, or_false] at hops
  rcases hops with rfl
  · exact Pipeline.sub_ucRefs op ((List.forall_iff_forall_mem.mp Gen.hostOps1_sub) op hop)
/-- It allocates nothing. -/
theorem sfx_fresh : ∀ ops ∈ ([Gen.hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is no array of the pipeline. -/
theorem sfx_keeps : ∀ ops ∈ ([Gen.hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [Gen.hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The host operations before the region write none of the five argument arrays. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [Gen.hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [Gen.hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [Gen.hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [Gen.hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [Gen.hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The slice after the region writes neither feature array, and neither is an array of the pipeline: each ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [Gen.hostOps1] c main_arg0 = m ((c : Thread nD τ).loc main_arg0) := by
  unfold Pipeline.afterTail₀
  rw [StableHlo.after_of_forall_not_mem (b := Proc.devRef .tc main_arg0) _ _ (List.forall_iff_forall_mem.mp (by
      simp only [Gen.hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [Gen.hostOps1] c main_arg1 = m ((c : Thread nD τ).loc main_arg1) := by
  unfold Pipeline.afterTail₀
  rw [StableHlo.after_of_forall_not_mem (b := Proc.devRef .tc main_arg1) _ _ (List.forall_iff_forall_mem.mp (by
      simp only [Gen.hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at the point, for any proof data whose array is the
    region-entry contents and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The two feature arrays are arrays of no window (only the host's concatenation reads them): the run's post gives them
    as the slice after the region leaves them, which is as launched. The three weight arrays are staged inputs: the
    run's post gives each as the proof data's array, which is the region-entry contents, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [Gen.hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c)))⟩) h

/-! ## The body's accesses: every load and the one store take a whole buffer -/

abbrev rX : Rect S4096x1032 := Rect.unit (s := S4096x1032) ![0, 0] S4096x1032.size Gen.inb_S4096x1032_S4096x1032_0_0
abbrev rW1 : Rect S1032x512 := Rect.unit (s := S1032x512) ![0, 0] S1032x512.size Gen.inb_S1032x512_S1032x512_0_0
abbrev rW2 : Rect S256x128 := Rect.unit (s := S256x128) ![0, 0] S256x128.size Gen.inb_S256x128_S256x128_0_0
abbrev rB2 : Rect S1x128 := Rect.unit (s := S1x128) ![0, 0] S1x128.size Gen.inb_S1x128_S1x128_0_0
abbrev rO : Rect S4096x128 := Rect.unit (s := S4096x128) ![0, 0] S4096x128.size Gen.inb_S4096x128_S4096x128_0_0

/-- The output window's staging buffer after the body, from the input windows' blocks: its one store read back. -/
def out0_4 (x0 : Vec F S4096x1032 .f32) (x1 : Vec F S1032x512 .f32) (x2 : Vec F S256x128 .f32) (x3 : Vec F S1x128 .f32) :
    Vec F S4096x128 .f32 :=
  View.canon [⟨rO, k0_pay1 (View.ld x0 rX) (View.ld x1 rW1) (View.ld x2 rW2) (View.ld x3 rB2)⟩]

/-- The one store takes the whole buffer, so it covers it. -/
theorem cover0_4 (p0 : Vec F S4096x128 .f32) (y : S4096x128.Idx) :
    ∃ pc ∈ ([⟨rO, p0⟩] : List (View.Piece (Elt F) S4096x128 .f32)), y ∈ pc.1.set :=
  View.cover_of_wholeMem [⟨rO, p0⟩] (by sl_whole_mem) y

/-! ## The body's triple -/

set_option maxHeartbeats 1000000 in
/-- The body on whole staging memrefs, the four inputs' at read contents and the output's at anything, runs to the
    continuation holding the inputs' as they were and the output's at `out0_4` of the inputs'. -/
theorem sound_kernel (c : Dev nD) (E : Set ℕ) (i : grid0.Coords)
    (arg1 : Memref sig .tc .vmem S4096x1032 .f32) (harg1 : arg1.IsWhole) (arg2 : Memref sig .tc .vmem S1032x512 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S4096x128 .f32) (harg5 : arg5.IsWhole)
    (x0 : Vec F S4096x1032 .f32) (x1 : Vec F S1032x512 .f32) (x2 : Vec F S256x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0_statistician_kernel i arg1 harg1 arg2 harg2 arg3 harg3 arg4 harg4 arg5 harg5) K := by
  simp only [cc0_statistician_kernel_eq_skeleton]; unfold cc0_statistician_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the one pipeline on core `c`: the arrays as the region finds them; after the body each input's
    buffer at its block and the output's at `out0_4` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block at the point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d))
    ∗ (∃ d, owns (c : Thread nD τ) (Gen.st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t)
    ∗ owns (c : Thread nD τ) (Gen.st0_3 t) fullShare ((dats m 0 c).after 3 t)
    ∗ owns (c : Thread nD τ) (Gen.st0_4 t) fullShare ((dats m 0 c).after 4 t))

/-- The body at the point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [Gen.bigSep_W0, Gen.bigSep_W0]
  exact sound_body m c t

/-! ## The run and the frame -/

set_option backward.isDefEq.respectTransparency.types false in
/-- Every weakly fair execution of @main terminates, and every final state has every array of the pipeline at what the
    library computes from the proof data and every other unscoped buffer as the slice after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) Gen.launch0 defs₀ Variants.none m ρ main
    (hbody := fun c => (body_obligation m c).loose) (hshare := fun c => (dats m 0 c).share_full fun _ => rfl)
    (howed := fun _ _ => rfl) (V₀ := V0 m) (opss := [Gen.hostOps1]) (hsub := sfx_sub) (hfresh := sfx_fresh) (hkeep := sfx_keeps)
    (hmain := hmain m Variants.none) (hA := A_eq m) (hΦ := fun _ _ => rfl)

/-- The frame: the reference runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.ReferenceIdeal.Hand

end
-- ==== Proof.RowSpec.lean ====
/-
  The row function both programs compute. Every row of the batch is treated alone: the row's two feature vectors are
  laid side by side with a one and seven zeros behind them (1032 entries), multiplied into the first weight slab
  (512 columns: 256 code logits, then 256 pooled features), the code logits go through a softmax, the features are
  averaged with the codes as weights, each feature is centred and scaled by that average, the result is multiplied into
  the head's weights, the bias row is added and a second softmax gives the 128 output lanes, of which the first 100
  are kept. All of it over the extended reals, operation by operation as the programs spell it: the softmax subtracts
  the row's maximum (a fold of `max` from −∞), exponentiates and divides by the sum; the quotient is the ideal
  instance's `Ideal.div`.
-/
import Idealize.ShloMosaic.PureOps.Ideal
import Idealize.ShloMosaic.Lib.ValueIdx

noncomputable section

open scoped BigOperators

namespace Cert.RowSpec

open Idealize.ShloMosaic Idealize.ShloMosaic.ValueIdx

/-- The softmax of a finite family the way both programs compute it: subtract the maximum (a fold of `max` from the
    pattern of −∞), exponentiate, divide by the sum of the exponentials. -/
def softmaxRow {n : Nat} (z : Fin n → EReal) (j : Fin n) : EReal :=
  Ideal.div (Ideal.exp (z j - (Finset.univ : Finset (Fin n)).fold max (Ideal.ofBits .f32 0xFF800000#32) z))
    (∑ k : Fin n, Ideal.exp (z k - (Finset.univ : Finset (Fin n)).fold max (Ideal.ofBits .f32 0xFF800000#32) z))

/-- Column `j` of the first product: the slab row against column `j` of the first weight slab. -/
def proj (xr : Fin 1032 → EReal) (w1 : (⟨2, ![1032, 512]⟩ : Shape).Idx → EReal) (j : Fin 512) : EReal :=
  ∑ k : Fin 1032, xr k * w1 (ix2 k j)

/-- The code logits: the product's first 256 columns. -/
def codeLogit (xr : Fin 1032 → EReal) (w1 : (⟨2, ![1032, 512]⟩ : Shape).Idx → EReal) (j : Fin 256) : EReal :=
  proj xr w1 ⟨0 + j.val, by omega⟩

/-- The pooled features: its last 256 columns. -/
def feat (xr : Fin 1032 → EReal) (w1 : (⟨2, ![1032, 512]⟩ : Shape).Idx → EReal) (j : Fin 256) : EReal :=
  proj xr w1 ⟨256 + j.val, by omega⟩

/-- The codes: the softmax of the code logits. -/
def code (xr : Fin 1032 → EReal) (w1 : (⟨2, ![1032, 512]⟩ : Shape).Idx → EReal) (j : Fin 256) : EReal :=
  softmaxRow (codeLogit xr w1) j

/-- The code-weighted sum of the features, one number per row. -/
def pooled (xr : Fin 1032 → EReal) (w1 : (⟨2, ![1032, 512]⟩ : Shape).Idx → EReal) : EReal :=
  ∑ j : Fin 256, code xr w1 j * feat xr w1 j

/-- Each feature centred at that number and divided by it. -/
def centred (xr : Fin 1032 → EReal) (w1 : (⟨2, ![1032, 512]⟩ : Shape).Idx → EReal) (j : Fin 256) : EReal :=
  Ideal.div (feat xr w1 j - pooled xr w1) (pooled xr w1)

/-- The head's logits: the centred features against the head's weights, plus the bias row. -/
def headLogit (xr : Fin 1032 → EReal) (w1 : (⟨2, ![1032, 512]⟩ : Shape).Idx → EReal)
    (w2 : (⟨2, ![256, 128]⟩ : Shape).Idx → EReal) (b2 : (⟨2, ![1, 128]⟩ : Shape).Idx → EReal) (n : Fin 128) : EReal :=
  (∑ j : Fin 256, centred xr w1 j * w2 (ix2 j n)) + b2 (ix2 (0 : Fin 1) n)

/-- One row of the result over all 128 lanes: the softmax of the head's logits. -/
def rowOut (xr : Fin 1032 → EReal) (w1 : (⟨2, ![1032, 512]⟩ : Shape).Idx → EReal)
    (w2 : (⟨2, ![256, 128]⟩ : Shape).Idx → EReal) (b2 : (⟨2, ![1, 128]⟩ : Shape).Idx → EReal) (n : Fin 128) : EReal :=
  softmaxRow (headLogit xr w1 w2 b2) n

/-- A slab row: the first feature vector, the second, a one, seven zeros. -/
def slabRow (g v : Fin 512 → EReal) (k : Fin 1032) : EReal :=
  if h : k.val < 512 then g ⟨k.val, h⟩
  else if h2 : k.val < 1024 then v ⟨k.val - 512, by omega⟩
  else if k.val = 1024 then Ideal.ofBits .f32 0x3F800000#32
  else Ideal.ofBits .f32 0x00000000#32

/-- Row `r` of the 4096 × 128 array the pallas_call of either program leaves, before the last 28 lanes are cut. -/
def wide (xg xv : (⟨2, ![4096, 512]⟩ : Shape).Idx → EReal) (w1 : (⟨2, ![1032, 512]⟩ : Shape).Idx → EReal)
    (w2 : (⟨2, ![256, 128]⟩ : Shape).Idx → EReal) (b2 : (⟨2, ![1, 128]⟩ : Shape).Idx → EReal) :
    (⟨2, ![4096, 128]⟩ : Shape).Idx → EReal :=
  fun i => rowOut (slabRow (fun k => xg (ix2 ⟨(i 0).val, idx2_lt0 i⟩ k)) (fun k => xv (ix2 ⟨(i 0).val, idx2_lt0 i⟩ k))) w1 w2 b2
    ⟨(i 1).val, idx2_lt1 i⟩

/-- The result of either program: the first 100 lanes of every row. -/
def result (xg xv : (⟨2, ![4096, 512]⟩ : Shape).Idx → EReal) (w1 : (⟨2, ![1032, 512]⟩ : Shape).Idx → EReal)
    (w2 : (⟨2, ![256, 128]⟩ : Shape).Idx → EReal) (b2 : (⟨2, ![1, 128]⟩ : Shape).Idx → EReal) :
    (⟨2, ![4096, 100]⟩ : Shape).Idx → EReal :=
  fun i => wide xg xv w1 w2 b2 (ix2 ⟨(i 0).val, idx2_lt0 i⟩ ⟨0 + (i 1).val, by have := idx2_lt1 i; omega⟩)

end Cert.RowSpec

end
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.KerPay.lean ====
/-
  The kernel's stored values read at an index: the three pieces it lays into its scratch slab (the two feature blocks
  as they are, and a one followed by seven zeros), and row `p`, lane `n` of the 512 × 128 block it stores, which is the
  row function of row `p` of the slab it reads back from the scratch, the two weight blocks and the bias row.
-/
import proofs.«130960_g2000402938320646_pallasbulk_333_3_alg».proof.Proof.Gen.KernelIdeal.Skeleton
import proofs.«130960_g2000402938320646_pallasbulk_333_3_alg».proof.Proof.RowSpec
import proofs.«130960_g2000402938320646_pallasbulk_333_3_alg».proof.Proof.LibRowOps

noncomputable section

open scoped BigOperators

namespace Cert.KernelIdeal.Pay

open Idealize.ShloMosaic Idealize.ShloMosaic.ValueIdx Cert.KernelIdeal Cert.KernelIdeal.Gen

/-- The first feature block goes into the slab unchanged. -/
theorem pay2_apply (x0 : Vec Ideal S512x512 .f32) (i : S512x512.Idx) : k0_pay2 (F := Ideal) x0 i = x0 i := by
  show shapeCast S512x512 x0 shapeCasts_S512x512_S512x512 i = x0 i
  rw [shapeCast_self]

/-- So does the second. -/
theorem pay3_apply (x1 : Vec Ideal S512x512 .f32) (i : S512x512.Idx) : k0_pay3 (F := Ideal) x1 i = x1 i := by
  show shapeCast S512x512 x1 shapeCasts_S512x512_S512x512 i = x1 i
  rw [shapeCast_self]

/-- A comparison of the word of `u < 8` with the zero word picks the first value exactly when `u = 0`. -/
theorem select_eq0_of_lt8 {α : Type} (u : Fin 8) (A B : α) :
    Scalar.select (IntOp.cmpi .eq (BitVec.ofNat 32 u.val) 0#32) A B = if u.val = 0 then A else B := by
  fin_cases u <;> rfl

/-- The slab's last eight columns: a one in the first, zeros in the other seven. -/
theorem pay4_apply (p : Fin 512) (u : Fin 8) :
    k0_pay4 (F := Ideal) (ix2 p u) = if u.val = 0 then Ideal.ofBits .f32 0x3F800000#32 else Ideal.ofBits .f32 0x00000000#32 := by
  show shapeCast S512x8
      (select (cmpi .eq (iota .tc S512x8 32 [1] iota_S512x8_d1_w32) (broadcast S512x8 0#32))
        (broadcast S512x8 (Ideal.ofBits .f32 0x3F800000#32)) (broadcast S512x8 (Ideal.ofBits .f32 0x00000000#32)))
      shapeCasts_S512x8_S512x8 (ix2 p u) = _
  rw [shapeCast_self, select_apply, broadcast_apply, broadcast_apply]
  show Scalar.select (IntOp.cmpi .eq (iota .tc S512x8 32 [1] iota_S512x8_d1_w32 (ix2 p u)) 0#32) _ _ = _
  rw [iota_single_apply]
  exact select_eq0_of_lt8 u _ _

/-! ## A softmax along the rows of a 512-row matrix, vector by vector -/

section Softmax

variable {N : ℕ}

/-- The row maxima: the fold of `max` from −∞ along the columns. -/
def rowMaxV (v : FVec Ideal (⟨2, ![512, N]⟩ : Shape) .f32) (hr : (⟨2, ![512, N]⟩ : Shape).Reduces [(1 : Fin 2)] S512) :
    FVec Ideal S512 .f32 :=
  multiReduction .maximumf [1] S512 v 0xFF800000#32 hr (.inl rfl) rfl

/-- The exponentials of the entries less their row's maximum. -/
def expShiftV (v : FVec Ideal (⟨2, ![512, N]⟩ : Shape) .f32) (hr : (⟨2, ![512, N]⟩ : Shape).Reduces [(1 : Fin 2)] S512)
    (hc : S512.ShapeCasts S512x1) (hb : S512x1.Broadcasts ⟨2, ![512, N]⟩) : FVec Ideal (⟨2, ![512, N]⟩ : Shape) .f32 :=
  exp (subf v (broadcastTo ⟨2, ![512, N]⟩ (shapeCast S512x1 (rowMaxV v hr) hc) hb))

/-- Their row sums. -/
def expSumV (v : FVec Ideal (⟨2, ![512, N]⟩ : Shape) .f32) (hr : (⟨2, ![512, N]⟩ : Shape).Reduces [(1 : Fin 2)] S512)
    (hc : S512.ShapeCasts S512x1) (hb : S512x1.Broadcasts ⟨2, ![512, N]⟩) : FVec Ideal S512 .f32 :=
  multiReduction .add [1] S512 (expShiftV v hr hc hb) 0x00000000#32 hr (.inl rfl) rfl

/-- The quotients: the softmax of every row. -/
def softmaxV (v : FVec Ideal (⟨2, ![512, N]⟩ : Shape) .f32) (hr : (⟨2, ![512, N]⟩ : Shape).Reduces [(1 : Fin 2)] S512)
    (hc : S512.ShapeCasts S512x1) (hb : S512x1.Broadcasts ⟨2, ![512, N]⟩) : FVec Ideal (⟨2, ![512, N]⟩ : Shape) .f32 :=
  divf (expShiftV v hr hc hb) (broadcastTo ⟨2, ![512, N]⟩ (shapeCast S512x1 (expSumV v hr hc hb) hc) hb)

theorem rowMaxV_apply (v : FVec Ideal (⟨2, ![512, N]⟩ : Shape) .f32)
    (hr : (⟨2, ![512, N]⟩ : Shape).Reduces [(1 : Fin 2)] S512) (r : Fin 512) :
    rowMaxV v hr (ix1 r)
      = (Finset.univ : Finset (Fin N)).fold max (Ideal.ofBits .f32 0xFF800000#32) (fun k => v (ix2 r k)) :=
  Cert.RowOps.rowMax_apply v 0xFF800000#32 hr (.inl rfl) rfl r

theorem expShiftV_apply (v : FVec Ideal (⟨2, ![512, N]⟩ : Shape) .f32)
    (hr : (⟨2, ![512, N]⟩ : Shape).Reduces [(1 : Fin 2)] S512) (hc : S512.ShapeCasts S512x1)
    (hb : S512x1.Broadcasts ⟨2, ![512, N]⟩) (r : Fin 512) (j : Fin N) :
    expShiftV v hr hc hb (ix2 r j)
      = Ideal.exp (v (ix2 r j)
          - (Finset.univ : Finset (Fin N)).fold max (Ideal.ofBits .f32 0xFF800000#32) (fun k => v (ix2 r k))) := by
  show Ideal.exp (v (ix2 r j) - broadcastTo ⟨2, ![512, N]⟩ (shapeCast S512x1 (rowMaxV v hr) hc) hb (ix2 r j)) = _
  rw [Cert.RowOps.rowSplat_apply, rowMaxV_apply]

theorem expSumV_apply (v : FVec Ideal (⟨2, ![512, N]⟩ : Shape) .f32)
    (hr : (⟨2, ![512, N]⟩ : Shape).Reduces [(1 : Fin 2)] S512) (hc : S512.ShapeCasts S512x1)
    (hb : S512x1.Broadcasts ⟨2, ![512, N]⟩) (r : Fin 512) :
    expSumV v hr hc hb (ix1 r)
      = ∑ k : Fin N, Ideal.exp (v (ix2 r k)
          - (Finset.univ : Finset (Fin N)).fold max (Ideal.ofBits .f32 0xFF800000#32) (fun k => v (ix2 r k))) := by
  refine (Cert.RowOps.rowSum_apply (expShiftV v hr hc hb) 0x00000000#32 hr (.inl rfl) rfl r).trans ?_
  exact Finset.sum_congr rfl fun k _ => expShiftV_apply v hr hc hb r k

/-- Row `r` of the softmax is the softmax of row `r`. -/
theorem softmaxV_apply (v : FVec Ideal (⟨2, ![512, N]⟩ : Shape) .f32)
    (hr : (⟨2, ![512, N]⟩ : Shape).Reduces [(1 : Fin 2)] S512) (hc : S512.ShapeCasts S512x1)
    (hb : S512x1.Broadcasts ⟨2, ![512, N]⟩) (r : Fin 512) (j : Fin N) :
    softmaxV v hr hc hb (ix2 r j) = Cert.RowSpec.softmaxRow (fun k => v (ix2 r k)) j := by
  unfold softmaxV
  rw [divf_apply, Cert.RowOps.rowSplat_apply, expSumV_apply, expShiftV_apply]
  rfl

end Softmax

/-! ## The first product and what is cut from it -/

/-- The first product at `(r, j)`: the slab's row `r` against column `j` of the first weight slab. -/
theorem pay5_apply (xs : Vec Ideal S512x1032 .f32) (w1 : Vec Ideal S1032x512 .f32) (r : Fin 512) (j : Fin 512) :
    k0_pay5 (F := Ideal) xs w1 (ix2 r j) = Cert.RowSpec.proj (fun k => xs (ix2 r k)) w1 j :=
  Cert.RowOps.matmul_row_apply dot_S512x1032_S1032x512_S512x512_1_0_0_1_n_n rfl rfl rfl rfl rfl rfl none xs w1 r j

/-- Its last 256 columns are the features. -/
theorem pay6_apply (xs : Vec Ideal S512x1032 .f32) (w1 : Vec Ideal S1032x512 .f32) (r : Fin 512) (j : Fin 256) :
    k0_pay6 (F := Ideal) xs w1 (ix2 r j) = Cert.RowSpec.feat (fun k => xs (ix2 r k)) w1 j := by
  show extractStridedSlice S512x256 ![0, 256] (k0_pay5 (F := Ideal) xs w1) slices_S512x512_o0_256_S512x256 (ix2 r j) = _
  rw [slice2_axis1_eq, pay5_apply]
  rfl

/-- Its first 256 columns, the code logits. -/
def codeLogitV (xs : Vec Ideal S512x1032 .f32) (w1 : Vec Ideal S1032x512 .f32) : FVec Ideal S512x256 .f32 :=
  extractStridedSlice S512x256 ![0, 0] (k0_pay5 (F := Ideal) xs w1) slices_S512x512_o0_0_S512x256

theorem codeLogitV_apply (xs : Vec Ideal S512x1032 .f32) (w1 : Vec Ideal S1032x512 .f32) (r : Fin 512) (j : Fin 256) :
    codeLogitV xs w1 (ix2 r j) = Cert.RowSpec.codeLogit (fun k => xs (ix2 r k)) w1 j := by
  show extractStridedSlice S512x256 ![0, 0] (k0_pay5 (F := Ideal) xs w1) slices_S512x512_o0_0_S512x256 (ix2 r j) = _
  rw [slice2_axis1_eq, pay5_apply]
  rfl

/-- The codes: the softmax of the code logits, row by row. -/
def codeV (xs : Vec Ideal S512x1032 .f32) (w1 : Vec Ideal S1032x512 .f32) : FVec Ideal S512x256 .f32 :=
  softmaxV (codeLogitV xs w1) reduces_S512x256_S512 shapeCasts_S512_S512x1 broadcasts_S512x1_S512x256

theorem codeV_apply (xs : Vec Ideal S512x1032 .f32) (w1 : Vec Ideal S1032x512 .f32) (r : Fin 512) (j : Fin 256) :
    codeV xs w1 (ix2 r j) = Cert.RowSpec.code (fun k => xs (ix2 r k)) w1 j := by
  refine (softmaxV_apply (codeLogitV xs w1) reduces_S512x256_S512 shapeCasts_S512_S512x1 broadcasts_S512x1_S512x256
    r j).trans ?_
  show Cert.RowSpec.softmaxRow _ j = Cert.RowSpec.softmaxRow _ j
  exact congrArg (fun z => Cert.RowSpec.softmaxRow z j) (funext fun k => codeLogitV_apply xs w1 r k)

/-- The pooled numbers: the row sums of the codes times the features. -/
def pooledV (xs : Vec Ideal S512x1032 .f32) (w1 : Vec Ideal S1032x512 .f32) : FVec Ideal S512 .f32 :=
  multiReduction .add [1] S512 (mulf (codeV xs w1) (k0_pay6 (F := Ideal) xs w1)) 0x00000000#32 reduces_S512x256_S512
    (.inl rfl) rfl

theorem pooledV_apply (xs : Vec Ideal S512x1032 .f32) (w1 : Vec Ideal S1032x512 .f32) (r : Fin 512) :
    pooledV xs w1 (ix1 r) = Cert.RowSpec.pooled (fun k => xs (ix2 r k)) w1 := by
  refine (Cert.RowOps.rowSum_apply (mulf (codeV xs w1) (k0_pay6 (F := Ideal) xs w1)) 0x00000000#32
    reduces_S512x256_S512 (.inl rfl) rfl r).trans ?_
  refine Finset.sum_congr rfl fun j _ => ?_
  rw [mulf_apply, codeV_apply, pay6_apply]

/-- The pooled column the first part hands on is that vector made a column. -/
theorem pay7_eq (xs : Vec Ideal S512x1032 .f32) (w1 : Vec Ideal S1032x512 .f32) :
    k0_pay7 (F := Ideal) xs w1 = shapeCast S512x1 (pooledV xs w1) shapeCasts_S512_S512x1 := rfl

theorem pay7_apply (xs : Vec Ideal S512x1032 .f32) (w1 : Vec Ideal S1032x512 .f32) (r : Fin 512) (u : Fin 1) :
    k0_pay7 (F := Ideal) xs w1 (ix2 r u) = Cert.RowSpec.pooled (fun k => xs (ix2 r k)) w1 := by
  rw [pay7_eq, Cert.RowOps.shapeCast_a_a1_apply, pooledV_apply]

theorem pay8_apply (xs : Vec Ideal S512x1032 .f32) (w1 : Vec Ideal S1032x512 .f32) (r : Fin 512) (j : Fin 256) :
    k0_pay8 (F := Ideal) xs w1 (ix2 r j) = Cert.RowSpec.pooled (fun k => xs (ix2 r k)) w1 := by
  show broadcastTo S512x256 (k0_pay7 (F := Ideal) xs w1) broadcasts_S512x1_S512x256 (ix2 r j) = _
  rw [Cert.RowOps.broadcastTo_a1_ab_apply, pay7_apply]

/-! ## The head -/

/-- The centred features. -/
def centredV (xs : Vec Ideal S512x1032 .f32) (w1 : Vec Ideal S1032x512 .f32) : FVec Ideal S512x256 .f32 :=
  divf (subf (k0_pay6 (F := Ideal) xs w1) (k0_pay8 (F := Ideal) xs w1))
    (broadcastTo S512x256 (k0_pay7 (F := Ideal) xs w1) broadcasts_S512x1_S512x256)

theorem centredV_apply (xs : Vec Ideal S512x1032 .f32) (w1 : Vec Ideal S1032x512 .f32) (r : Fin 512) (j : Fin 256) :
    centredV xs w1 (ix2 r j) = Cert.RowSpec.centred (fun k => xs (ix2 r k)) w1 j := by
  show Ideal.div (k0_pay6 (F := Ideal) xs w1 (ix2 r j) - k0_pay8 (F := Ideal) xs w1 (ix2 r j))
      (broadcastTo S512x256 (k0_pay7 (F := Ideal) xs w1) broadcasts_S512x1_S512x256 (ix2 r j)) = _
  rw [Cert.RowOps.broadcastTo_a1_ab_apply, pay6_apply, pay7_apply, pay8_apply]
  rfl

/-- The head's logits: the centred features against the head's weights, plus the bias row. -/
def headV (xs : Vec Ideal S512x1032 .f32) (w1 : Vec Ideal S1032x512 .f32) (w2 : Vec Ideal S256x128 .f32)
    (b2 : Vec Ideal S1x128 .f32) : FVec Ideal S512x128 .f32 :=
  addf (matmul (φ₁ := .f32) (φ₂ := .f32) dot_S512x256_S256x128_S512x128_1_0_0_1_n_n none (centredV xs w1) w2
      (constant (F := Ideal) S512x128 .f32 0x00000000#32))
    (broadcastTo S512x128 b2 broadcasts_S1x128_S512x128)

theorem headV_apply (xs : Vec Ideal S512x1032 .f32) (w1 : Vec Ideal S1032x512 .f32) (w2 : Vec Ideal S256x128 .f32)
    (b2 : Vec Ideal S1x128 .f32) (r : Fin 512) (n : Fin 128) :
    headV xs w1 w2 b2 (ix2 r n) = Cert.RowSpec.headLogit (fun k => xs (ix2 r k)) w1 w2 b2 n := by
  show FloatOps.matmul (φ₁ := .f32) (φ₂ := .f32) dot_S512x256_S256x128_S512x128_1_0_0_1_n_n none (centredV xs w1) w2
        (constant (F := Ideal) S512x128 .f32 0x00000000#32) (ix2 r n)
      + broadcastTo S512x128 b2 broadcasts_S1x128_S512x128 (ix2 r n) = _
  rw [Cert.RowOps.matmul_row_apply dot_S512x256_S256x128_S512x128_1_0_0_1_n_n rfl rfl rfl rfl rfl rfl none
    (centredV xs w1) w2 r n, broadcastTo_1b_ab_apply]
  show _ = (∑ j : Fin 256, Cert.RowSpec.centred (fun k => xs (ix2 r k)) w1 j * w2 (ix2 j n)) + b2 (ix2 (0 : Fin 1) n)
  congr 1
  exact Finset.sum_congr rfl fun j _ => by rw [centredV_apply]

/-- The stored block is the softmax of the head's logits. -/
theorem pay1_eq (xs : Vec Ideal S512x1032 .f32) (w1 : Vec Ideal S1032x512 .f32) (w2 : Vec Ideal S256x128 .f32)
    (b2 : Vec Ideal S1x128 .f32) :
    k0_pay1 (F := Ideal) (k0_pay6 xs w1) (k0_pay7 xs w1) (k0_pay8 xs w1) w2 b2
      = softmaxV (headV xs w1 w2 b2) reduces_S512x128_S512 shapeCasts_S512_S512x1 broadcasts_S512x1_S512x128 := by
  unfold k0_pay1 softmaxV expShiftV expSumV rowMaxV headV centredV
  rfl

/-- The body's stored value at `(p, n)`: the row function of row `p` of the slab read back from the scratch. -/
theorem pay_apply (xs : Vec Ideal S512x1032 .f32) (w1 : Vec Ideal S1032x512 .f32) (w2 : Vec Ideal S256x128 .f32)
    (b2 : Vec Ideal S1x128 .f32) (p : Fin 512) (n : Fin 128) :
    k0_pay1 (F := Ideal) (k0_pay6 xs w1) (k0_pay7 xs w1) (k0_pay8 xs w1) w2 b2 (ix2 p n)
      = Cert.RowSpec.rowOut (fun k => xs (ix2 p k)) w1 w2 b2 n := by
  rw [pay1_eq]
  refine (softmaxV_apply (headV xs w1 w2 b2) reduces_S512x128_S512 shapeCasts_S512_S512x1 broadcasts_S512x1_S512x128
    p n).trans ?_
  show Cert.RowSpec.softmaxRow _ n = Cert.RowSpec.softmaxRow _ n
  exact congrArg (fun z => Cert.RowSpec.softmaxRow z n) (funext fun k => headV_apply xs w1 w2 b2 p k)

end Cert.KernelIdeal.Pay

end
-- ==== Proof.KerPiece.lean ====
/-
  What the kernel's body leaves in its output block at a grid point, read at an index: row `p`, lane `n` is the row
  function of the slab row assembled from row `p` of the point's two feature blocks, against the weight blocks and the
  bias row.
-/
import proofs.«130960_g2000402938320646_pallasbulk_333_3_alg».proof.Proof.Gen.KernelIdeal.Frame
import proofs.«130960_g2000402938320646_pallasbulk_333_3_alg».proof.Proof.KerPay

set_option maxRecDepth 16384

noncomputable section

open scoped BigOperators

namespace Cert.KernelIdeal.Val

open Idealize.ShloMosaic Idealize.ShloMosaic.TcCoe Idealize.ShloMosaic.ValueIdx Idealize.SL.Sem Cert.KernelIdeal Cert.KernelIdeal.Gen
open Idealize.ShloMosaic.Tactic

/-! ## The slab row, range by range -/

/-- Below 512 a slab row is the first feature vector. -/
theorem slabRow_lo (g v : Fin 512 → EReal) (n : Nat) (h : n < 512) :
    Cert.RowSpec.slabRow g v ⟨n, by omega⟩ = g ⟨n, h⟩ := by
  unfold Cert.RowSpec.slabRow
  exact dif_pos h

/-- From 512 to 1023 it is the second, shifted by 512. -/
theorem slabRow_mid (g v : Fin 512 → EReal) (n : Nat) (h : n < 512) :
    Cert.RowSpec.slabRow g v ⟨512 + n, by omega⟩ = v ⟨n, h⟩ := by
  unfold Cert.RowSpec.slabRow
  have h1 : ¬ ((⟨512 + n, by omega⟩ : Fin 1032).val < 512) := by show ¬ (512 + n < 512); omega
  have h2 : (⟨512 + n, by omega⟩ : Fin 1032).val < 1024 := by show 512 + n < 1024; omega
  rw [dif_neg h1, dif_pos h2]
  exact congrArg v (Fin.ext (by show 512 + n - 512 = n; omega))

/-- In the last eight columns it is a one, then zeros. -/
theorem slabRow_hi (g v : Fin 512 → EReal) (n : Nat) (h : n < 8) :
    Cert.RowSpec.slabRow g v ⟨1024 + n, by omega⟩
      = if n = 0 then Ideal.ofBits .f32 0x3F800000#32 else Ideal.ofBits .f32 0x00000000#32 := by
  unfold Cert.RowSpec.slabRow
  have h1 : ¬ ((⟨1024 + n, by omega⟩ : Fin 1032).val < 512) := by show ¬ (1024 + n < 512); omega
  have h2 : ¬ ((⟨1024 + n, by omega⟩ : Fin 1032).val < 1024) := by show ¬ (1024 + n < 1024); omega
  rw [dif_neg h1, dif_neg h2]
  by_cases hn : n = 0
  · rw [if_pos hn, if_pos (by show 1024 + n = 1024; omega)]
  · rw [if_neg hn, if_neg (by show ¬ (1024 + n = 1024); omega)]

/-! ## The slab the three stores leave, and the output block over it -/

section Slab

variable {F : FTy → Type} [FloatOps F]

theorem hz00 : (![0, 0] : Fin 2 → Nat) = fun _ => 0 := by
  funext a; match a with | ⟨0, _⟩ => rfl | ⟨1, _⟩ => rfl

/-- The 512 × 1032 slab after the three column-block stores (the last store first): the two feature blocks side by
    side, then the block of a one and seven zeros. -/
def slab (x0 x1 : Vec F S512x512 .f32) : Vec F S512x1032 .f32 :=
  View.canon (Val := Elt F) (s := S512x1032) (e := .f32)
    [⟨Rect.unit ![0, 1024] S512x8.size inb_S512x1032_S512x8_0_1024, k0_pay4⟩,
      ⟨Rect.unit ![0, 512] S512x512.size inb_S512x1032_S512x512_0_512, k0_pay3 x1⟩,
      ⟨Rect.unit ![0, 0] S512x512.size inb_S512x1032_S512x512_0_0, k0_pay2 x0⟩]

/-- A load of the whole slab after the three stores reads that slab, through any view of its shape. -/
theorem readCov_slab (v : View sig .tc .vmem S512x1032 .f32) (x0 x1 : Vec F S512x512 .f32) :
    v.readCov (Val := Elt F)
        [⟨Rect.unit ![0, 1024] S512x8.size inb_S512x1032_S512x8_0_1024, k0_pay4⟩,
      ⟨Rect.unit ![0, 512] S512x512.size inb_S512x1032_S512x512_0_512, k0_pay3 x1⟩,
      ⟨Rect.unit ![0, 0] S512x512.size inb_S512x1032_S512x512_0_0, k0_pay2 x0⟩]
        (Rect.unit ![0, 0] S512x1032.size inb_S512x1032_S512x1032_0_0).toLoadRect
      = slab x0 x1 := by
  rw [View.readCov_eq_canon']
  unfold slab
  exact View.ld_unit_zero (S := S512x1032) hz00 inb_S512x1032_S512x1032_0_0 _

/-- The output block the body leaves: the stored value over the slab read back, the weights and the bias as loaded. -/
theorem out0_A_5_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1032x512 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x1032 .f32) (harg7 : arg7.IsWhole)
    (x0 : Vec F S512x512 .f32) (x1 : Vec F S512x512 .f32) (x2 : Vec F S1032x512 .f32) (x3 : Vec F S256x128 .f32) (x4 : Vec F S1x128 .f32) :
    out0_A_5 c i arg1 harg1 arg2 harg2 arg3 harg3 arg4 harg4 arg5 harg5 arg6 harg6 arg7 harg7 x0 x1 x2 x3 x4
      = k0_pay1 (k0_pay6 (slab x0 x1) x2) (k0_pay7 (slab x0 x1) x2) (k0_pay8 (slab x0 x1) x2) x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero hz00]
  simp only [View.readAt_eq_ld, harg1.read_unread, harg2.read_unread, harg3.read_unread, harg4.read_unread,
    harg5.read_unread, View.ld_unit_zero (S := S512x512) hz00, View.ld_unit_zero (S := S1032x512) hz00,
    View.ld_unit_zero (S := S256x128) hz00, View.ld_unit_zero (S := S1x128) hz00]
  exact congrArg (fun X => k0_pay1 (k0_pay6 X x2) (k0_pay7 X x2) (k0_pay8 X x2) x3 x4) (readCov_slab arg7.view x0 x1)

end Slab

/-! ## The slab at an index -/

/-- The slab as one function of its index: row `j 0` of the two blocks laid out as a slab row, at column `j 1`. -/
def slabG (x0 x1 : Vec Ideal S512x512 .f32) : (⟨2, ![512, 1032]⟩ : Shape).Idx → EReal := fun j =>
  Cert.RowSpec.slabRow (fun k => x0 (ix2 ⟨(j 0).val, idx2_lt0 j⟩ k)) (fun k => x1 (ix2 ⟨(j 0).val, idx2_lt0 j⟩ k))
    ⟨(j 1).val, idx2_lt1 j⟩

/-- That function at an index whose coordinates are `p` and `k`. -/
theorem slabG_at (x0 x1 : Vec Ideal S512x512 .f32) (j : (⟨2, ![512, 1032]⟩ : Shape).Idx) (p : Fin 512) (k : Fin 1032)
    (h0 : (j 0).val = p.val) (h1 : (j 1).val = k.val) :
    slabG x0 x1 j = Cert.RowSpec.slabRow (fun k => x0 (ix2 p k)) (fun k => x1 (ix2 p k)) k := by
  have e : j = ix2 p k := by
    funext d
    match d with
    | ⟨0, _⟩ => exact Fin.ext h0
    | ⟨1, _⟩ => exact Fin.ext h1
  subst e
  rfl

/-- The slab at `(p, k)` is the slab row of row `p` of the two blocks, at `k`: each of the three stored pieces is the
    block of that one function its rectangle names, and the three rectangles cover the slab. -/
theorem slab_apply (x0 x1 : Vec Ideal S512x512 .f32) (p : Fin 512) (k : Fin 1032) :
    slab (F := Ideal) x0 x1 (ix2 p k)
      = Cert.RowSpec.slabRow (fun k => x0 (ix2 p k)) (fun k => x1 (ix2 p k)) k := by
  unfold slab
  refine (View.canon_apply_of_pieces (slabG x0 x1) _ ?pieces (ix2 p k)
    (View.cover_of_tiledBy _ ![512, 8] (by sl_kernel_rfl) (ix2 p k))).trans ?atix
  case atix => exact slabG_at x0 x1 (ix2 p k) p k rfl rfl
  case pieces =>
    intro q hq
    simp only [List.mem_cons, List.mem_nil_iff, or_false] at hq
    rcases hq with rfl | rfl | rfl
    · intro x
      obtain ⟨a, u, rfl⟩ : ∃ (a : Fin 512) (u : Fin 8), x = ix2 a u := ⟨x 0, x 1, eq_ix2 x⟩
      have ha := a.isLt
      have hu := u.isLt
      refine (Pay.pay4_apply a u).trans ?_
      refine Eq.trans ?main (slabG_at x0 x1 _ a ⟨1024 + u.val, by omega⟩ ?h0 ?h1).symm
      case main => exact (slabRow_hi (fun k => x0 (ix2 a k)) (fun k => x1 (ix2 a k)) u.val u.isLt).symm
      case h0 => show 0 + 1 * a.val = a.val; omega
      case h1 => show 1024 + 1 * u.val = 1024 + u.val; omega
    · intro x
      obtain ⟨a, b, rfl⟩ : ∃ (a : Fin 512) (b : Fin 512), x = ix2 a b := ⟨x 0, x 1, eq_ix2 x⟩
      have ha := a.isLt
      have hb := b.isLt
      refine (Pay.pay3_apply x1 (ix2 a b)).trans ?_
      refine Eq.trans ?main (slabG_at x0 x1 _ a ⟨512 + b.val, by omega⟩ ?h0 ?h1).symm
      case main => exact (slabRow_mid (fun k => x0 (ix2 a k)) (fun k => x1 (ix2 a k)) b.val b.isLt).symm
      case h0 => show 0 + 1 * a.val = a.val; omega
      case h1 => show 512 + 1 * b.val = 512 + b.val; omega
    · intro x
      obtain ⟨a, b, rfl⟩ : ∃ (a : Fin 512) (b : Fin 512), x = ix2 a b := ⟨x 0, x 1, eq_ix2 x⟩
      have ha := a.isLt
      have hb := b.isLt
      refine (Pay.pay2_apply x0 (ix2 a b)).trans ?_
      refine Eq.trans ?main (slabG_at x0 x1 _ a ⟨b.val, by omega⟩ ?h0 ?h1).symm
      case main => exact (slabRow_lo (fun k => x0 (ix2 a k)) (fun k => x1 (ix2 a k)) b.val b.isLt).symm
      case h0 => show 0 + 1 * a.val = a.val; omega
      case h1 => show 0 + 1 * b.val = b.val; omega

/-! ## The output block at a grid point -/

variable (m : (ℓ : Loc nD τ sig) → Buf (Elt Ideal) ℓ)

/-- The point's input blocks, at their literal types. -/
abbrev gapBlk (c : Dev nD) (t : Fin cfg0.N) : Vec Ideal S512x512 .f32 := iblk m c 0 t
abbrev gvpBlk (c : Dev nD) (t : Fin cfg0.N) : Vec Ideal S512x512 .f32 := iblk m c 1 t
abbrev w1Blk (c : Dev nD) (t : Fin cfg0.N) : Vec Ideal S1032x512 .f32 := iblk m c 2 t
abbrev w2Blk (c : Dev nD) (t : Fin cfg0.N) : Vec Ideal S256x128 .f32 := iblk m c 3 t
abbrev b2Blk (c : Dev nD) (t : Fin cfg0.N) : Vec Ideal S1x128 .f32 := iblk m c 4 t

/-- The output block after the body at point `t`, at `(p, n)`. -/
theorem outsAt0_apply (c : Dev nD) (t : Fin cfg0.N) (p : Fin 512) (n : Fin 128) :
    (outsAt0 m c t : Vec Ideal S512x128 .f32) (ix2 p n)
      = Cert.RowSpec.rowOut (Cert.RowSpec.slabRow (fun k => gapBlk m c t (ix2 p k)) (fun k => gvpBlk m c t (ix2 p k)))
          (w1Blk m c t) (w2Blk m c t) (b2Blk m c t) n := by
  unfold outsAt0
  refine (congrFun (out0_A_5_eq (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _)
    (gapBlk m c t) (gvpBlk m c t) (w1Blk m c t) (w2Blk m c t) (b2Blk m c t)) (ix2 p n)).trans ?_
  refine (Pay.pay_apply (slab (gapBlk m c t) (gvpBlk m c t)) (w1Blk m c t) (w2Blk m c t) (b2Blk m c t) p n).trans ?_
  have e : (fun k => slab (F := Ideal) (gapBlk m c t) (gvpBlk m c t) (ix2 p k))
      = Cert.RowSpec.slabRow (fun k => gapBlk m c t (ix2 p k)) (fun k => gvpBlk m c t (ix2 p k)) :=
    funext fun k => slab_apply (gapBlk m c t) (gvpBlk m c t) p k
  exact congrArg (fun r => Cert.RowSpec.rowOut r (w1Blk m c t) (w2Blk m c t) (b2Blk m c t) n) e

end Cert.KernelIdeal.Val

end
-- ==== Proof.KerValue.lean ====
/-
  The kernel program's result. Its pallas_call runs on eight grid points, point `t` taking rows 512 t … 512 t + 511 of
  the two feature arrays and the whole of the weights and the bias, and writing back rows 512 t … 512 t + 511 of a
  4096 × 128 array; the host then keeps the first 100 lanes. Each written block is the row function of its rows, so the
  array is the row function of every row, whatever the block it fell in.
-/
import proofs.«130960_g2000402938320646_pallasbulk_333_3_alg».proof.Proof.KerPiece
import Idealize.ShloMosaic.Lib.Pipeline.Value
import Idealize.ShloMosaic.Lib.ValueLayout
import Idealize.ShloMosaic.Lib.StableHlo.Run

noncomputable section

open scoped BigOperators

namespace Cert.KernelIdeal.Val

open Idealize.ShloMosaic Idealize.ShloMosaic.TcCoe Idealize.ShloMosaic.ValueIdx Idealize.SL.Sem Cert.KernelIdeal Cert.KernelIdeal.Gen

section Blocks

variable (m : (ℓ : Loc nD τ sig) → Buf (Elt Ideal) ℓ)

/-- The grid's index maps, decided over its eight points: the two feature windows and the output window sit at
    block (t, 0), the weights and the bias at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the first feature block at point `t` is row `512 t + p` of the first feature array. -/
theorem gapBlk_apply (c : Dev nD) (t : Fin cfg0.N) (p k : Fin 512) (h : 512 * t.val + p.val < 4096) :
    gapBlk m c t (ix2 p k)
      = (m ((c.tc : Thread nD τ).loc main_arg0) : S4096x512.Idx → EReal) (ix2 ⟨512 * t.val + p.val, h⟩ k) := by
  obtain ⟨e0, e1, -⟩ := index_maps t
  show (iblk m c 0 t : Vec Ideal S512x512 .f32) (ix2 p k) = _
  unfold iblk
  rw [View.read_apply]
  show m ((c.tc : Thread nD τ).loc main_arg0) _ = m ((c.tc : Thread nD τ).loc main_arg0) _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 512 + 1 * k.val = k.val; rw [e1]; omega

/-- Row `p` of the second feature block at point `t` is row `512 t + p` of the second feature array. -/
theorem gvpBlk_apply (c : Dev nD) (t : Fin cfg0.N) (p k : Fin 512) (h : 512 * t.val + p.val < 4096) :
    gvpBlk m c t (ix2 p k)
      = (m ((c.tc : Thread nD τ).loc main_arg1) : S4096x512.Idx → EReal) (ix2 ⟨512 * t.val + p.val, h⟩ k) := by
  obtain ⟨-, -, e0, e1, -⟩ := index_maps t
  show (iblk m c 1 t : Vec Ideal S512x512 .f32) (ix2 p k) = _
  unfold iblk
  rw [View.read_apply]
  show m ((c.tc : Thread nD τ).loc main_arg1) _ = m ((c.tc : Thread nD τ).loc main_arg1) _
  congr 1
  funext a
  apply Fin.ext
  match a with
  | ⟨0, _⟩ => show win0_1.index t (0 : Fin 2) * 512 + 1 * p.val = 512 * t.val + p.val; rw [e0]; omega
  | ⟨1, _⟩ => show win0_1.index t (1 : Fin 2) * 512 + 1 * k.val = k.val; rw [e1]; omega

/-- The first weight slab's block is the whole slab at every point. -/
theorem w1Blk_eq (c : Dev nD) (t : Fin cfg0.N) :
    w1Blk m c t = (m ((c.tc : Thread nD τ).loc main_arg2) : S1032x512.Idx → EReal) := by
  obtain ⟨-, -, -, -, e0, e1, -⟩ := index_maps t
  funext i
  show (iblk m c 2 t : Vec Ideal S1032x512 .f32) i = _
  unfold iblk
  rw [View.read_apply]
  show m ((c.tc : Thread nD τ).loc main_arg2) _ = m ((c.tc : Thread nD τ).loc main_arg2) _
  congr 1
  funext a
  apply Fin.ext
  match a with
  | ⟨0, _⟩ => show win0_2.index t (0 : Fin 2) * 1032 + 1 * (i 0).val = (i 0).val; rw [e0]; omega
  | ⟨1, _⟩ => show win0_2.index t (1 : Fin 2) * 512 + 1 * (i 1).val = (i 1).val; rw [e1]; omega

/-- The head's weights' block is the whole array at every point. -/
theorem w2Blk_eq (c : Dev nD) (t : Fin cfg0.N) :
    w2Blk m c t = (m ((c.tc : Thread nD τ).loc main_arg3) : S256x128.Idx → EReal) := by
  obtain ⟨-, -, -, -, -, -, e0, e1, -⟩ := index_maps t
  funext i
  show (iblk m c 3 t : Vec Ideal S256x128 .f32) i = _
  unfold iblk
  rw [View.read_apply]
  show m ((c.tc : Thread nD τ).loc main_arg3) _ = m ((c.tc : Thread nD τ).loc main_arg3) _
  congr 1
  funext a
  apply Fin.ext
  match a with
  | ⟨0, _⟩ => show win0_3.index t (0 : Fin 2) * 256 + 1 * (i 0).val = (i 0).val; rw [e0]; omega
  | ⟨1, _⟩ => show win0_3.index t (1 : Fin 2) * 128 + 1 * (i 1).val = (i 1).val; rw [e1]; omega

/-- The bias row's block is the whole row at every point. -/
theorem b2Blk_eq (c : Dev nD) (t : Fin cfg0.N) :
    b2Blk m c t = (m ((c.tc : Thread nD τ).loc main_arg4) : S1x128.Idx → EReal) := by
  obtain ⟨-, -, -, -, -, -, -, -, e0, e1, -⟩ := index_maps t
  funext i
  show (iblk m c 4 t : Vec Ideal S1x128 .f32) i = _
  unfold iblk
  rw [View.read_apply]
  show m ((c.tc : Thread nD τ).loc main_arg4) _ = m ((c.tc : Thread nD τ).loc main_arg4) _
  congr 1
  funext a
  apply Fin.ext
  match a with
  | ⟨0, _⟩ => show win0_4.index t (0 : Fin 2) * 1 + 1 * (i 0).val = (i 0).val; rw [e0]; omega
  | ⟨1, _⟩ => show win0_4.index t (1 : Fin 2) * 128 + 1 * (i 1).val = (i 1).val; rw [e1]; omega

/-- The 4096 × 128 array the specification's row function makes of the five argument arrays on core `c`. -/
abbrev wideOf (c : Dev nD) : S4096x128.Idx → EReal :=
  Cert.RowSpec.wide (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The specification's wide array at an index whose row is `r` and whose lane is `n`. -/
theorem wide_at (xg xv : S4096x512.Idx → EReal) (w1 : S1032x512.Idx → EReal) (w2 : S256x128.Idx → EReal)
    (b2 : S1x128.Idx → EReal) (i : S4096x128.Idx) (r : Fin 4096) (n : Fin 128)
    (hr : (i 0).val = r.val) (hn : (i 1).val = n.val) :
    Cert.RowSpec.wide xg xv w1 w2 b2 i
      = Cert.RowSpec.rowOut (Cert.RowSpec.slabRow (fun k => xg (ix2 r k)) (fun k => xv (ix2 r k))) w1 w2 b2 n := by
  have e0 : (⟨(i 0).val, idx2_lt0 i⟩ : Fin 4096) = r := Fin.ext hr
  have e1 : (⟨(i 1).val, idx2_lt1 i⟩ : Fin 128) = n := Fin.ext hn
  show Cert.RowSpec.rowOut (Cert.RowSpec.slabRow (fun k => xg (ix2 ⟨(i 0).val, idx2_lt0 i⟩ k))
      (fun k => xv (ix2 ⟨(i 0).val, idx2_lt0 i⟩ k))) w1 w2 b2 ⟨(i 1).val, idx2_lt1 i⟩ = _
  rw [e0, e1]

/-- What point `t` writes back is block `t` of that array: rows `512 t … 512 t + 511`, all 128 lanes. -/
theorem flushed_eq (c : Dev nD) (t : Fin cfg0.N) :
    (dats m 0 c).flushed 5 t = ((cfg0.win 5).blk t).view.read (Elt Ideal) (wideOf m c) := by
  show (cfg0.win 5).cut (grid0.coords t) ((dats m 0 c).after 5 t) = _
  rw [after0_5]
  funext y
  rw [View.read_apply]
  obtain ⟨-, -, -, -, -, -, -, -, -, -, e0, e1⟩ := index_maps t
  have hN : cfg0.N = 8 := N_0
  have ht : t.val < 8 := hN ▸ t.isLt
  have hp : (y 0).val < 512 := Nat.lt_of_lt_of_le (y 0).isLt (win0_5.xsize_le (grid0.coords t) 0)
  have hn : (y 1).val < 128 := Nat.lt_of_lt_of_le (y 1).isLt (win0_5.xsize_le (grid0.coords t) 1)
  have hr : 512 * t.val + (y 0).val < 4096 := by omega
  have hq : (win0_5.xinj (grid0.coords t) y : S512x128.Idx) = ix2 ⟨(y 0).val, hp⟩ ⟨(y 1).val, hn⟩ := by
    funext a
    match a with
    | ⟨0, _⟩ => rfl
    | ⟨1, _⟩ => rfl
  have h0 : ((((cfg0.win 5).blk t).view.emb y) 0).val = 512 * t.val + (y 0).val := by
    show win0_5.index t (0 : Fin 2) * 512 + 1 * (y 0).val = _
    rw [e0]; omega
  have h1 : ((((cfg0.win 5).blk t).view.emb y) 1).val = (y 1).val := by
    show win0_5.index t (1 : Fin 2) * 128 + 1 * (y 1).val = _
    rw [e1]; omega
  show (outsAt0 m c t : Vec Ideal S512x128 .f32) (win0_5.xinj (grid0.coords t) y)
      = wideOf m c (((cfg0.win 5).blk t).view.emb y)
  rw [hq, outsAt0_apply m c t ⟨(y 0).val, hp⟩ ⟨(y 1).val, hn⟩,
    (funext fun k => gapBlk_apply m c t ⟨(y 0).val, hp⟩ k hr :
      (fun k => gapBlk m c t (ix2 ⟨(y 0).val, hp⟩ k)) = fun k => (m ((c.tc : Thread nD τ).loc main_arg0) : S4096x512.Idx → EReal) (ix2 ⟨512 * t.val + (y 0).val, hr⟩ k)),
    (funext fun k => gvpBlk_apply m c t ⟨(y 0).val, hp⟩ k hr :
      (fun k => gvpBlk m c t (ix2 ⟨(y 0).val, hp⟩ k)) = fun k => (m ((c.tc : Thread nD τ).loc main_arg1) : S4096x512.Idx → EReal) (ix2 ⟨512 * t.val + (y 0).val, hr⟩ k)),
    w1Blk_eq, w2Blk_eq, b2Blk_eq]
  exact (wide_at _ _ _ _ _ (((cfg0.win 5).blk t).view.emb y) ⟨512 * t.val + (y 0).val, hr⟩ ⟨(y 1).val, hn⟩ h0 h1).symm

/-- An index of the 4096 × 128 array is in point `t`'s block iff its row is among the point's 512 rows (every lane is). -/
theorem mem_blk (t : Fin cfg0.N) (i : S4096x128.Idx) :
    i ∈ ((cfg0.win 5).blk t).view.set ↔ ∀ a : Fin 2, win0_5.index t a * S512x128.size a ≤ (i a).val
      ∧ (i a).val < win0_5.index t a * S512x128.size a + S512x128.size a := by
  show i ∈ ((View.whole main_v0).slice (win0_5.rect t)).set ↔ _
  rw [View.set_slice_whole, Rect.mem_set_unit]
  exact Iff.rfl

/-- Row `r` lies in the block of point `r / 512`, which writes back: the eight blocks cover the array. -/
theorem cover (i : S4096x128.Idx) :
    ∃ t : Fin cfg0.N, (cfg0.win 5).flush t = true ∧ i ∈ ((cfg0.win 5).blk t).view.set := by
  have hi0 : (i 0).val < 4096 := idx2_lt0 i
  have hi1 : (i 1).val < 128 := idx2_lt1 i
  have hN : cfg0.N = 8 := N_0
  have hlt : (i 0).val / 512 < cfg0.N := by rw [hN]; omega
  obtain ⟨-, -, -, -, -, -, -, -, -, -, e0, e1⟩ := index_maps ⟨(i 0).val / 512, hlt⟩
  have e0' : win0_5.index ⟨(i 0).val / 512, hlt⟩ (0 : Fin 2) = (i 0).val / 512 := e0
  refine ⟨⟨(i 0).val / 512, hlt⟩, flush0_5 _, ?_⟩
  rw [mem_blk]
  intro a
  match a with
  | ⟨0, _⟩ =>
    show win0_5.index ⟨(i 0).val / 512, hlt⟩ (0 : Fin 2) * 512 ≤ (i 0).val
      ∧ (i 0).val < win0_5.index ⟨(i 0).val / 512, hlt⟩ (0 : Fin 2) * 512 + 512
    rw [e0']; omega
  | ⟨1, _⟩ =>
    show win0_5.index ⟨(i 0).val / 512, hlt⟩ (1 : Fin 2) * 128 ≤ (i 1).val
      ∧ (i 1).val < win0_5.index ⟨(i 0).val / 512, hlt⟩ (1 : Fin 2) * 128 + 128
    rw [e1]; omega

/-- So the pallas_call leaves the specification's wide array in its output. -/
theorem final (c : Dev nD) : (dats m 0 c).arrAt 5 cfg0.N = wideOf m c :=
  (dats m 0 c).arrAt_eq_of_cover 5 (wideOf m c) (fun t _ => flushed_eq m c t) cover

/-- The host's last operation keeps lanes 0 … 99 of every row of that array: the specification's result. -/
theorem tail_eq (c : Dev nD) :
    Pipeline.afterTail₀ cfgs (dats m) 0 (V0 m) [hostOps1] c main_v1
      = Cert.RowSpec.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = wideOf m c :=
    (Pipeline.withArrays_arr spec0 launch0.win.arr_inj c _ _ 5).trans (final m c)
  rw [hw]
  funext i
  obtain ⟨a, b, rfl⟩ : ∃ a b, i = ix2 a b := ⟨i 0, i 1, eq_ix2 i⟩
  exact slice2_axis1_eq 0 (wideOf m c) slices_S4096x128_S4096x100_0_0 a b

end Blocks

/-- Every weakly fair execution of the kernel program terminates with its result at the specification's array of the
    argument arrays, which end unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = Cert.RowSpec.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact (θ_run defs _ _).mono (fun r h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Val

end
-- ==== Proof.RefPay.lean ====
/-
  The reference kernel's stored value read at an index: row `r`, lane `n` of the 4096 × 128 block it stores is the row
  function of row `r` of the slab it loaded, the two weight blocks and the bias row.
-/
import proofs.«130960_g2000402938320646_pallasbulk_333_3_alg».proof.Proof.Gen.ReferenceIdeal.Skeleton
import proofs.«130960_g2000402938320646_pallasbulk_333_3_alg».proof.Proof.RowSpec
import proofs.«130960_g2000402938320646_pallasbulk_333_3_alg».proof.Proof.LibRowOps

noncomputable section

open scoped BigOperators

namespace Cert.ReferenceIdeal.Pay

open Idealize.ShloMosaic Idealize.ShloMosaic.ValueIdx Cert.ReferenceIdeal Cert.ReferenceIdeal.Gen

/-! ## The softmax along the rows of a matrix

Both softmaxes of the body are the same four steps on a matrix `z`: the row maxima, the exponentials of the entries
less their row's maximum, the row sums of those, the quotient. Row `r` of the outcome depends on row `r` of `z` only. -/

section Softmax

variable {R N : ℕ}

/-- The exponentials of the entries of `z`, each less the maximum of its row. -/
def expShift (z : FVec Ideal ⟨2, ![R, N]⟩ .f32) (hr : (⟨2, ![R, N]⟩ : Shape).Reduces [(1 : Fin 2)] ⟨1, ![R]⟩)
    (hc : (⟨1, ![R]⟩ : Shape).ShapeCasts ⟨2, ![R, 1]⟩) (hb : (⟨2, ![R, 1]⟩ : Shape).Broadcasts ⟨2, ![R, N]⟩) :
    FVec Ideal ⟨2, ![R, N]⟩ .f32 :=
  exp (subf z (broadcastTo ⟨2, ![R, N]⟩ (shapeCast ⟨2, ![R, 1]⟩
    (multiReduction (F := Ideal) .maximumf [(1 : Fin 2)] ⟨1, ![R]⟩ z 0xFF800000#32 hr (.inl rfl) rfl) hc) hb))

/-- The softmax of every row of `z`: those exponentials over their row sums. -/
def softmaxVec (z : FVec Ideal ⟨2, ![R, N]⟩ .f32) (hr : (⟨2, ![R, N]⟩ : Shape).Reduces [(1 : Fin 2)] ⟨1, ![R]⟩)
    (hc : (⟨1, ![R]⟩ : Shape).ShapeCasts ⟨2, ![R, 1]⟩) (hb : (⟨2, ![R, 1]⟩ : Shape).Broadcasts ⟨2, ![R, N]⟩) :
    FVec Ideal ⟨2, ![R, N]⟩ .f32 :=
  divf (expShift z hr hc hb) (broadcastTo ⟨2, ![R, N]⟩ (shapeCast ⟨2, ![R, 1]⟩
    (multiReduction (F := Ideal) .add [(1 : Fin 2)] ⟨1, ![R]⟩ (expShift z hr hc hb) 0x00000000#32 hr (.inl rfl) rfl) hc) hb)

/-- Where row `r` of `z` is the family `zf`, the shifted exponential at `(r, j)` is that of `zf` at `j`. -/
theorem expShift_apply (z : FVec Ideal ⟨2, ![R, N]⟩ .f32) (hr : (⟨2, ![R, N]⟩ : Shape).Reduces [(1 : Fin 2)] ⟨1, ![R]⟩)
    (hc : (⟨1, ![R]⟩ : Shape).ShapeCasts ⟨2, ![R, 1]⟩) (hb : (⟨2, ![R, 1]⟩ : Shape).Broadcasts ⟨2, ![R, N]⟩)
    (zf : Fin N → EReal) (r : Fin R) (hz : ∀ j : Fin N, z (ix2 r j) = zf j) (j : Fin N) :
    expShift z hr hc hb (ix2 r j)
      = Ideal.exp (zf j - (Finset.univ : Finset (Fin N)).fold max (Ideal.ofBits .f32 0xFF800000#32) zf) := by
  have hm : multiReduction (F := Ideal) .maximumf [(1 : Fin 2)] ⟨1, ![R]⟩ z 0xFF800000#32 hr (.inl rfl) rfl (ix1 r)
      = (Finset.univ : Finset (Fin N)).fold max (Ideal.ofBits .f32 0xFF800000#32) zf :=
    (Cert.RowOps.rowMax_apply z 0xFF800000#32 hr (.inl rfl) rfl r).trans
      (congrArg (fun f => (Finset.univ : Finset (Fin N)).fold max (Ideal.ofBits .f32 0xFF800000#32) f) (funext hz))
  show Ideal.exp (z (ix2 r j) - broadcastTo ⟨2, ![R, N]⟩ (shapeCast ⟨2, ![R, 1]⟩
    (multiReduction (F := Ideal) .maximumf [(1 : Fin 2)] ⟨1, ![R]⟩ z 0xFF800000#32 hr (.inl rfl) rfl) hc) hb (ix2 r j)) = _
  rw [Cert.RowOps.rowSplat_apply, hm, hz]

/-- Where row `r` of `z` is the family `zf`, row `r` of the softmax is the softmax of `zf`. -/
theorem softmaxVec_apply (z : FVec Ideal ⟨2, ![R, N]⟩ .f32) (hr : (⟨2, ![R, N]⟩ : Shape).Reduces [(1 : Fin 2)] ⟨1, ![R]⟩)
    (hc : (⟨1, ![R]⟩ : Shape).ShapeCasts ⟨2, ![R, 1]⟩) (hb : (⟨2, ![R, 1]⟩ : Shape).Broadcasts ⟨2, ![R, N]⟩)
    (zf : Fin N → EReal) (r : Fin R) (hz : ∀ j : Fin N, z (ix2 r j) = zf j) (j : Fin N) :
    softmaxVec z hr hc hb (ix2 r j) = Cert.RowSpec.softmaxRow zf j := by
  have hs : multiReduction (F := Ideal) .add [(1 : Fin 2)] ⟨1, ![R]⟩ (expShift z hr hc hb) 0x00000000#32 hr (.inl rfl) rfl (ix1 r)
      = ∑ k : Fin N, Ideal.exp (zf k - (Finset.univ : Finset (Fin N)).fold max (Ideal.ofBits .f32 0xFF800000#32) zf) :=
    (Cert.RowOps.rowSum_apply (expShift z hr hc hb) 0x00000000#32 hr (.inl rfl) rfl r).trans
      (Finset.sum_congr rfl fun k _ => expShift_apply z hr hc hb zf r hz k)
  show Ideal.div (expShift z hr hc hb (ix2 r j)) (broadcastTo ⟨2, ![R, N]⟩ (shapeCast ⟨2, ![R, 1]⟩
    (multiReduction (F := Ideal) .add [(1 : Fin 2)] ⟨1, ![R]⟩ (expShift z hr hc hb) 0x00000000#32 hr (.inl rfl) rfl) hc) hb
      (ix2 r j)) = _
  rw [Cert.RowOps.rowSplat_apply, hs, expShift_apply z hr hc hb zf r hz j]
  rfl

end Softmax

/-! ## The body's vectors, one by one -/

/-- The first product: the slab against the first weight slab, 4096 × 512. -/
def prod (v0 : Vec Ideal S4096x1032 .f32) (v2 : Vec Ideal S1032x512 .f32) : FVec Ideal S4096x512 .f32 :=
  matmul (φ₁ := .f32) (φ₂ := .f32) dot_S4096x1032_S1032x512_S4096x512_1_0_0_1_n_n none
    (shapeCast S4096x1032 v0 shapeCasts_S4096x1032_S4096x1032) v2 (constant S4096x512 .f32 0x00000000#32)

/-- Its first 256 columns: the code logits. -/
def logits (v0 : Vec Ideal S4096x1032 .f32) (v2 : Vec Ideal S1032x512 .f32) : FVec Ideal S4096x256 .f32 :=
  extractStridedSlice S4096x256 ![0, 0] (prod v0 v2) slices_S4096x512_o0_0_S4096x256

/-- Its last 256 columns: the pooled features. -/
def feats (v0 : Vec Ideal S4096x1032 .f32) (v2 : Vec Ideal S1032x512 .f32) : FVec Ideal S4096x256 .f32 :=
  extractStridedSlice S4096x256 ![0, 256] (prod v0 v2) slices_S4096x512_o0_256_S4096x256

/-- The codes: the softmax of the code logits along each row. -/
def codes (v0 : Vec Ideal S4096x1032 .f32) (v2 : Vec Ideal S1032x512 .f32) : FVec Ideal S4096x256 .f32 :=
  softmaxVec (logits v0 v2) reduces_S4096x256_S4096 shapeCasts_S4096_S4096x1 broadcasts_S4096x1_S4096x256

/-- The code-weighted sum of each row's features. -/
def pool (v0 : Vec Ideal S4096x1032 .f32) (v2 : Vec Ideal S1032x512 .f32) : FVec Ideal S4096 .f32 :=
  multiReduction (F := Ideal) .add [1] S4096 (mulf (codes v0 v2) (feats v0 v2)) 0x00000000#32 reduces_S4096x256_S4096
    (.inl rfl) rfl

/-- That sum spread over the 256 columns of its row. -/
def poolWide (v0 : Vec Ideal S4096x1032 .f32) (v2 : Vec Ideal S1032x512 .f32) : FVec Ideal S4096x256 .f32 :=
  broadcastTo S4096x256 (shapeCast S4096x1 (pool v0 v2) shapeCasts_S4096_S4096x1) broadcasts_S4096x1_S4096x256

/-- The features centred at their row's sum and divided by it. -/
def cen (v0 : Vec Ideal S4096x1032 .f32) (v2 : Vec Ideal S1032x512 .f32) : FVec Ideal S4096x256 .f32 :=
  divf (subf (feats v0 v2) (poolWide v0 v2)) (poolWide v0 v2)

/-- The head's logits: the centred features against the head's weights, plus the bias row. -/
def head (v0 : Vec Ideal S4096x1032 .f32) (v2 : Vec Ideal S1032x512 .f32) (v22 : Vec Ideal S256x128 .f32)
    (v24 : Vec Ideal S1x128 .f32) : FVec Ideal S4096x128 .f32 :=
  addf (matmul (φ₁ := .f32) (φ₂ := .f32) dot_S4096x256_S256x128_S4096x128_1_0_0_1_n_n none (cen v0 v2) v22
      (constant S4096x128 .f32 0x00000000#32))
    (broadcastTo S4096x128 (v24 : FVec Ideal S1x128 .f32) broadcasts_S1x128_S4096x128)

/-- The stored value is the softmax of the head's logits along each row: the body's chain of operations is this
    expression, value by value. -/
theorem pay_eq (v0 : Vec Ideal S4096x1032 .f32) (v2 : Vec Ideal S1032x512 .f32) (v22 : Vec Ideal S256x128 .f32)
    (v24 : Vec Ideal S1x128 .f32) :
    k0_pay1 (F := Ideal) v0 v2 v22 v24
      = softmaxVec (head v0 v2 v22 v24) reduces_S4096x128_S4096 shapeCasts_S4096_S4096x1 broadcasts_S4096x1_S4096x128 :=
  rfl

/-! ## Each of them read at a row -/

section Rows

variable (v0 : Vec Ideal S4096x1032 .f32) (v2 : Vec Ideal S1032x512 .f32) (v22 : Vec Ideal S256x128 .f32)
  (v24 : Vec Ideal S1x128 .f32) (r : Fin 4096)

/-- The product at `(r, j)`: row `r` of the slab against column `j` of the weights. -/
theorem prod_apply (j : Fin 512) : prod v0 v2 (ix2 r j) = Cert.RowSpec.proj (fun k => v0 (ix2 r k)) v2 j := by
  unfold prod
  rw [shapeCast_self]
  exact Cert.RowOps.matmul_row_apply dot_S4096x1032_S1032x512_S4096x512_1_0_0_1_n_n rfl rfl rfl rfl rfl rfl none
    (v0 : FVec Ideal S4096x1032 .f32) (v2 : FVec Ideal S1032x512 .f32) r j

theorem logits_apply (j : Fin 256) : logits v0 v2 (ix2 r j) = Cert.RowSpec.codeLogit (fun k => v0 (ix2 r k)) v2 j :=
  (slice2_axis1_eq 0 (prod v0 v2) slices_S4096x512_o0_0_S4096x256 r j).trans (prod_apply v0 v2 r _)

theorem feats_apply (j : Fin 256) : feats v0 v2 (ix2 r j) = Cert.RowSpec.feat (fun k => v0 (ix2 r k)) v2 j :=
  (slice2_axis1_eq 256 (prod v0 v2) slices_S4096x512_o0_256_S4096x256 r j).trans (prod_apply v0 v2 r _)

theorem codes_apply (j : Fin 256) : codes v0 v2 (ix2 r j) = Cert.RowSpec.code (fun k => v0 (ix2 r k)) v2 j :=
  softmaxVec_apply (logits v0 v2) reduces_S4096x256_S4096 shapeCasts_S4096_S4096x1 broadcasts_S4096x1_S4096x256
    (Cert.RowSpec.codeLogit (fun k => v0 (ix2 r k)) v2) r (logits_apply v0 v2 r) j

theorem pool_apply : pool v0 v2 (ix1 r) = Cert.RowSpec.pooled (fun k => v0 (ix2 r k)) v2 :=
  (Cert.RowOps.rowSum_apply (mulf (codes v0 v2) (feats v0 v2)) 0x00000000#32 reduces_S4096x256_S4096 (.inl rfl) rfl r).trans
    (Finset.sum_congr rfl fun j _ => by rw [mulf_apply, codes_apply, feats_apply])

theorem poolWide_apply (j : Fin 256) : poolWide v0 v2 (ix2 r j) = Cert.RowSpec.pooled (fun k => v0 (ix2 r k)) v2 :=
  (Cert.RowOps.rowSplat_apply (pool v0 v2) shapeCasts_S4096_S4096x1 broadcasts_S4096x1_S4096x256 r j).trans
    (pool_apply v0 v2 r)

theorem cen_apply (j : Fin 256) : cen v0 v2 (ix2 r j) = Cert.RowSpec.centred (fun k => v0 (ix2 r k)) v2 j := by
  show Ideal.div (feats v0 v2 (ix2 r j) - poolWide v0 v2 (ix2 r j)) (poolWide v0 v2 (ix2 r j)) = _
  rw [feats_apply, poolWide_apply]
  rfl

theorem head_apply (n : Fin 128) :
    head v0 v2 v22 v24 (ix2 r n) = Cert.RowSpec.headLogit (fun k => v0 (ix2 r k)) v2 v22 v24 n := by
  have h1 : FloatOps.matmul dot_S4096x256_S256x128_S4096x128_1_0_0_1_n_n none (cen v0 v2) (v22 : FVec Ideal S256x128 .f32)
      (constant S4096x128 .f32 0x00000000#32) (ix2 r n)
        = ∑ j : Fin 256, Cert.RowSpec.centred (fun k => v0 (ix2 r k)) v2 j * v22 (ix2 j n) :=
    (Cert.RowOps.matmul_row_apply dot_S4096x256_S256x128_S4096x128_1_0_0_1_n_n rfl rfl rfl rfl rfl rfl none (cen v0 v2)
      (v22 : FVec Ideal S256x128 .f32) r n).trans (Finset.sum_congr rfl fun j _ => by rw [cen_apply])
  have h2 : broadcastTo S4096x128 (v24 : FVec Ideal S1x128 .f32) broadcasts_S1x128_S4096x128 (ix2 r n)
      = v24 (ix2 (0 : Fin 1) n) :=
    broadcastTo_1b_ab_apply (v24 : FVec Ideal S1x128 .f32) broadcasts_S1x128_S4096x128 r n
  exact congrArg₂ (fun x y : EReal => x + y) h1 h2

end Rows

/-- The body's one stored value at `(r, n)`: the row function of row `r` of the loaded slab. -/
theorem pay_apply (v0 : Vec Ideal S4096x1032 .f32) (v2 : Vec Ideal S1032x512 .f32) (v22 : Vec Ideal S256x128 .f32)
    (v24 : Vec Ideal S1x128 .f32) (r : Fin 4096) (n : Fin 128) :
    k0_pay1 (F := Ideal) v0 v2 v22 v24 (ix2 r n) = Cert.RowSpec.rowOut (fun k => v0 (ix2 r k)) v2 v22 v24 n := by
  rw [pay_eq]
  exact softmaxVec_apply (head v0 v2 v22 v24) reduces_S4096x128_S4096 shapeCasts_S4096_S4096x1
    broadcasts_S4096x1_S4096x128 (Cert.RowSpec.headLogit (fun k => v0 (ix2 r k)) v2 v22 v24) r
    (head_apply v0 v2 v22 v24 r) n

end Cert.ReferenceIdeal.Pay

end
-- ==== Proof.RefValue.lean ====
/-
  The reference program's result. The host lays the two feature arrays, a column of ones and seven columns of zeros
  side by side into a 4096 × 1032 slab; the pallas_call takes the whole slab, the weights and the bias in one grid
  point and writes the whole 4096 × 128 array, each row the row function of the slab's row; the host then keeps the
  first 100 lanes.
-/
import proofs.«130960_g2000402938320646_pallasbulk_333_3_alg».proof.Proof.RefFrame
import proofs.«130960_g2000402938320646_pallasbulk_333_3_alg».proof.Proof.RefPay
import Idealize.ShloMosaic.Lib.Pipeline.Value
import Idealize.ShloMosaic.Lib.ValueLayout
import Idealize.ShloMosaic.Lib.StableHlo.Run

noncomputable section

open scoped BigOperators

namespace Cert.ReferenceIdeal.Val

open Idealize.ShloMosaic Idealize.ShloMosaic.TcCoe Idealize.ShloMosaic.ValueIdx Idealize.SL.Sem Cert.ReferenceIdeal Cert.ReferenceIdeal.Gen Cert.ReferenceIdeal.Hand

section

variable (m : (ℓ : Loc nD τ sig) → Buf (Elt Ideal) ℓ)

/-- The zero offset pair as the constant-zero function. -/
theorem hz : (![0, 0] : Fin 2 → Nat) = fun _ => 0 := funext fun a => by fin_cases a <;> rfl

/-! ## The body's output block -/

/-- The output block the body leaves is its stored value: one store over the whole buffer, every load whole. -/
theorem out_eq (x0 : Vec Ideal S4096x1032 .f32) (x1 : Vec Ideal S1032x512 .f32) (x2 : Vec Ideal S256x128 .f32) (x3 : Vec Ideal S1x128 .f32) :
    out0_4 (F := Ideal) x0 x1 x2 x3 = k0_pay1 x0 x1 x2 x3 := by
  unfold out0_4
  rw [View.canon_unit_zero hz]
  simp only [View.ld_unit_zero (S := S4096x1032) hz, View.ld_unit_zero (S := S1032x512) hz, View.ld_unit_zero (S := S256x128) hz, View.ld_unit_zero (S := S1x128) hz]

/-! ## The slab -/

/-- The slab as the region finds it: the two feature arrays, the column of ones and the seven columns of zeros side by side. -/
theorem slab_eq (c : Dev nD) : (V m c main_v2 : S4096x1032.Idx → EReal) =
    concatenate S4096x1032 1 [⟨S4096x512, m ((c : Thread nD τ).loc main_arg0)⟩, ⟨S4096x512, m ((c : Thread nD τ).loc main_arg1)⟩,
      ⟨S4096x1, broadcastInDim S4096x1 ![] Facts₀.bcast_S_S4096x1 (constant (F := Ideal) S_ .f32 0x3F800000#32)⟩,
      ⟨S4096x7, broadcastInDim S4096x7 ![] Facts₀.bcast_S_S4096x7 (constant (F := Ideal) S_ .f32 0x00000000#32)⟩]
      Facts₀.concatenates_S4096x512_S4096x512_S4096x1_S4096x7_S4096x1032_d1 := by
  show StableHlo.after hostOps0 (fun b => m (c, b)) (Proc.devRef .tc main_v2) = _
  after_results
  rfl

/-- Row `r` of the slab is the slab row of row `r` of the two feature arrays. -/
theorem slab_apply (c : Dev nD) (r : Fin 4096) (k : Fin 1032) :
    (V m c main_v2 : S4096x1032.Idx → EReal) (ix2 r k)
      = Cert.RowSpec.slabRow (fun k => m ((c : Thread nD τ).loc main_arg0) (ix2 r k)) (fun k => m ((c : Thread nD τ).loc main_arg1) (ix2 r k)) k := by
  rw [slab_eq]
  unfold Cert.RowSpec.slabRow
  by_cases h1 : k.val < 512
  · rw [dif_pos h1]
    refine concatenate_apply_piece (t := S4096x1032) (1 : Fin 2) _ _ (ix2 r k) 0 (by show 0 < 4; omega) S4096x512 _ rfl rfl 0 rfl
      (ix2 r ⟨k.val, h1⟩) (fun b hb => ?_) ?_
    · match b with
      | ⟨0, _⟩ => rfl
      | ⟨1, _⟩ => exact absurd rfl hb
    · show 0 + k.val = k.val; omega
  · rw [dif_neg h1]
    by_cases h2 : k.val < 1024
    · rw [dif_pos h2]
      refine concatenate_apply_piece (t := S4096x1032) (1 : Fin 2) _ _ (ix2 r k) 1 (by show 1 < 4; omega) S4096x512 _ rfl rfl 512 rfl
        (ix2 r ⟨k.val - 512, by omega⟩) (fun b hb => ?_) ?_
      · match b with
        | ⟨0, _⟩ => rfl
        | ⟨1, _⟩ => exact absurd rfl hb
      · show 512 + (k.val - 512) = k.val; omega
    · rw [dif_neg h2]
      by_cases h3 : k.val = 1024
      · rw [if_pos h3]
        refine (concatenate_apply_piece (t := S4096x1032) (1 : Fin 2) _ _ (ix2 r k) 2 (by show 2 < 4; omega) S4096x1 _ rfl rfl 1024 rfl
          (ix2 r (0 : Fin 1)) (fun b hb => ?_) ?_).trans ?_
        · match b with
          | ⟨0, _⟩ => rfl
          | ⟨1, _⟩ => exact absurd rfl hb
        · show 1024 + 0 = k.val; omega
        · exact broadcastInDim_apply _ _ _ _ (fun a => a.elim0) (fun a => a.elim0)
      · rw [if_neg h3]
        have hk : k.val < 1032 := k.isLt
        refine (concatenate_apply_piece (t := S4096x1032) (1 : Fin 2) _ _ (ix2 r k) 3 (by show 3 < 4; omega) S4096x7 _ rfl rfl 1025 rfl
          (ix2 r ⟨k.val - 1025, by omega⟩) (fun b hb => ?_) ?_).trans ?_
        · match b with
          | ⟨0, _⟩ => rfl
          | ⟨1, _⟩ => exact absurd rfl hb
        · show 1025 + (k.val - 1025) = k.val; omega
        · exact broadcastInDim_apply _ _ _ _ (fun a => a.elim0) (fun a => a.elim0)

/-! ## The blocks: on the one-point grid every window's block is its whole array -/

/-- Every index map sends the one grid point to block (0, 0). -/
theorem origin : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The slab window's block is the slab. -/
theorem blk_slab (c : Dev nD) (t : Fin cfg0.N) (y : S4096x1032.Idx) :
    (iblk m c 0 t : Vec Ideal S4096x1032 .f32) y = (V m c main_v2 : S4096x1032.Idx → EReal) y := by
  obtain ⟨e0, e1, -⟩ := origin t
  show V m c main_v2 (((cfg0.win 0).blk t).view.emb y) = V m c main_v2 y
  refine congrArg _ (funext fun a => Fin.ext ?_)
  match a with
  | ⟨0, _⟩ => show win0_0.index t (0 : Fin 2) * 4096 + 1 * (y 0).val = (y 0).val; omega
  | ⟨1, _⟩ => show win0_0.index t (1 : Fin 2) * 1032 + 1 * (y 1).val = (y 1).val; omega

/-- The first weight window's block is the first weight array as launched. -/
theorem blk_w1 (c : Dev nD) (t : Fin cfg0.N) :
    (iblk m c 1 t : Vec Ideal S1032x512 .f32) = m ((c : Thread nD τ).loc main_arg2) := by
  obtain ⟨-, -, e0, e1, -⟩ := origin t
  funext y
  refine Eq.trans ?_ (congrFun (V_main_arg2 m c) y)
  show V m c main_arg2 (((cfg0.win 1).blk t).view.emb y) = V m c main_arg2 y
  refine congrArg _ (funext fun a => Fin.ext ?_)
  match a with
  | ⟨0, _⟩ => show win0_1.index t (0 : Fin 2) * 1032 + 1 * (y 0).val = (y 0).val; omega
  | ⟨1, _⟩ => show win0_1.index t (1 : Fin 2) * 512 + 1 * (y 1).val = (y 1).val; omega

/-- The head's weight window's block is the head's weight array as launched. -/
theorem blk_w2 (c : Dev nD) (t : Fin cfg0.N) :
    (iblk m c 2 t : Vec Ideal S256x128 .f32) = m ((c : Thread nD τ).loc main_arg3) := by
  obtain ⟨-, -, -, -, e0, e1, -⟩ := origin t
  funext y
  refine Eq.trans ?_ (congrFun (V_main_arg3 m c) y)
  show V m c main_arg3 (((cfg0.win 2).blk t).view.emb y) = V m c main_arg3 y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega

/-- The bias window's block is the bias row as launched. -/
theorem blk_b2 (c : Dev nD) (t : Fin cfg0.N) :
    (iblk m c 3 t : Vec Ideal S1x128 .f32) = m ((c : Thread nD τ).loc main_arg4) := by
  obtain ⟨-, -, -, -, -, -, e0, e1, -⟩ := origin t
  funext y
  refine Eq.trans ?_ (congrFun (V_main_arg4 m c) y)
  show V m c main_arg4 (((cfg0.win 3).blk t).view.emb y) = V m c main_arg4 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-! ## What the one point writes back -/

/-- The body's output block at an index, from blocks that are the slab of two feature arrays, the weights and the
    bias: the row function of the index's row, at the index's lane. -/
theorem store_apply (x0 : Vec Ideal S4096x1032 .f32) (x1 : Vec Ideal S1032x512 .f32) (x2 : Vec Ideal S256x128 .f32) (x3 : Vec Ideal S1x128 .f32)
    (xg xv : S4096x512.Idx → EReal) (w1 : S1032x512.Idx → EReal) (w2 : S256x128.Idx → EReal) (b2 : S1x128.Idx → EReal)
    (hx0 : ∀ (r : Fin 4096) (k : Fin 1032), x0 (ix2 r k) = Cert.RowSpec.slabRow (fun k => xg (ix2 r k)) (fun k => xv (ix2 r k)) k)
    (h1 : x1 = w1) (h2 : x2 = w2) (h3 : x3 = b2) (j i : S4096x128.Idx) (hji : i = j) :
    out0_4 (F := Ideal) x0 x1 x2 x3 j = Cert.RowSpec.wide xg xv w1 w2 b2 i := by
  subst hji h1 h2 h3
  rw [out_eq]
  unfold Cert.RowSpec.wide
  refine (congrArg (k0_pay1 (F := Ideal) x0 x1 x2 x3) (eq_ix2 i)).trans ?_
  refine (Cert.ReferenceIdeal.Pay.pay_apply x0 x1 x2 x3 (i 0) (i 1)).trans ?_
  exact congrArg (fun f => Cert.RowSpec.rowOut f x1 x2 x3 (i 1)) (funext fun k => hx0 (i 0) k)

/-- What the one point writes back is its block of the wide result of the argument arrays. -/
theorem flushed_eq (c : Dev nD) (t : Fin cfg0.N) :
    (dats m 0 c).flushed 4 t = ((cfg0.win 4).blk t).view.read (Elt Ideal)
      (Cert.RowSpec.wide (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 4).cut (grid0.coords t) ((dats m 0 c).after 4 t) = _
  rw [after0_4]
  obtain ⟨-, -, -, -, -, -, -, -, e0, e1⟩ := origin t
  funext j
  show out0_4 (F := Ideal) (iblk m c 0 t) (iblk m c 1 t) (iblk m c 2 t) (iblk m c 3 t) j
    = Cert.RowSpec.wide (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 4).blk t).view.emb j)
  refine store_apply (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) (m ((c : Thread nD τ).loc main_arg4))
    (fun r k => (blk_slab m c t (ix2 r k)).trans (slab_apply m c r k)) (blk_w1 m c t) (blk_w2 m c t) (blk_b2 m c t) j
    (((cfg0.win 4).blk t).view.emb j) (funext fun a => Fin.ext ?_)
  match a with
  | ⟨0, _⟩ => show win0_4.index t (0 : Fin 2) * 4096 + 1 * (j 0).val = (j 0).val; omega
  | ⟨1, _⟩ => show win0_4.index t (1 : Fin 2) * 128 + 1 * (j 1).val = (j 1).val; omega

/-! ## The wide array after the region -/

/-- An index of the wide array is in point `t`'s block iff each coordinate is in the block's range on its axis. -/
theorem mem_blk (t : Fin cfg0.N) (i : S4096x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v3).slice (win0_4.rect t)).set ↔ _
  rw [View.set_slice_whole, Rect.mem_set_unit]
  exact Iff.rfl

/-- The one point's block holds every index. -/
theorem covered (i : S4096x128.Idx) : ∃ t : Fin cfg0.N, (cfg0.win 4).flush t = true ∧ i ∈ ((cfg0.win 4).blk t).view.set := by
  refine ⟨t0_0, flush0_4 t0_0, ?_⟩
  rw [mem_blk]
  obtain ⟨-, -, -, -, -, -, -, -, e0, e1⟩ := origin t0_0
  have h0 : (i 0).val < 4096 := (i 0).isLt
  have h1 : (i 1).val < 128 := (i 1).isLt
  intro a
  match a with
  | ⟨0, _⟩ => show win0_4.index t0_0 (0 : Fin 2) * 4096 ≤ (i 0).val ∧ (i 0).val < win0_4.index t0_0 (0 : Fin 2) * 4096 + 4096; omega
  | ⟨1, _⟩ => show win0_4.index t0_0 (1 : Fin 2) * 128 ≤ (i 1).val ∧ (i 1).val < win0_4.index t0_0 (1 : Fin 2) * 128 + 128; omega

/-- The pallas_call's result array ends at the wide result of the argument arrays. -/
theorem wide_final (c : Dev nD) : (dats m 0 c).arrAt 4 cfg0.N
    = Cert.RowSpec.wide (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 4 _ (fun t _ => flushed_eq m c t) covered

/-! ## The slice after the region -/

/-- The program's result: the first 100 lanes of every row of the wide result. -/
theorem tail_eq (c : Dev nD) : Pipeline.afterTail₀ cfgs (dats m) 0 (V0 m) [hostOps1] c main_v4
    = Cert.RowSpec.result (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v4) = _
  after_results
  have e : (Pipeline.withArrays (cfgs 0).spec c (V0 m c) (fun w => (dats m 0 c).arrAt w (cfgs 0).N) (Proc.devRef .tc main_v3) : S4096x128.Idx → EReal)
      = Cert.RowSpec.wide (m ((c : Thread nD τ).loc main_arg0)) (m ((c : Thread nD τ).loc main_arg1)) (m ((c : Thread nD τ).loc main_arg2))
          (m ((c : Thread nD τ).loc main_arg3)) (m ((c : Thread nD τ).loc main_arg4)) :=
    (Pipeline.withArrays_arr spec0 launch0.win.arr_inj c _ _ 4).trans (wide_final m c)
  funext i
  refine (congrArg (fun X : S4096x128.Idx → EReal => extractStridedSlice S4096x100 ![0, 0] X Facts₀.slices_S4096x128_S4096x100_0_0 i) e).trans ?_
  exact (congrArg _ (eq_ix2 i)).trans (slice2_axis1_eq 0 _ _ (i 0) (i 1))

end

/-! ## The run -/

/-- Every weakly fair execution of the reference program terminates with its result at the specification's array of
    the argument arrays, which end unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = Cert.RowSpec.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (Hand.run_main m ρ)

end Cert.ReferenceIdeal.Val

end
-- ==== Proof.lean ====
/-
  The kernel against its reference, over the extended reals. Both programs compute, for every row of the batch alone,
  the same row function (Proof/RowSpec.lean): the row's two feature vectors with a one and seven zeros behind them,
  against the first weight slab; a softmax over the first 256 columns of that product; the code-weighted average of the
  last 256; each of those centred at the average and divided by it; the head's product and bias; a second softmax; the
  first 100 lanes kept. The kernel assembles the slab row in a scratch buffer, 512 rows at a grid point; the reference
  lets the host concatenate the slab and takes all 4096 rows in one grid point. No row depends on another, the
  operations are the same on both sides and in the same order, so no algebraic law and no finiteness is needed: each
  side's result array is read back index by index as the row function (Proof/KerValue.lean, Proof/RefValue.lean) and the
  two are one term of the argument arrays. The kernel's two frames are the generated ones; the reference's frame is its
  run written out (Proof/RefFrame.lean); the idealization rewrote nothing.
-/
import proofs.«130960_g2000402938320646_pallasbulk_333_3_alg».proof.Defs
import proofs.«130960_g2000402938320646_pallasbulk_333_3_alg».proof.Proof.Gen.Kernel
import proofs.«130960_g2000402938320646_pallasbulk_333_3_alg».proof.Proof.Gen.Kernel.Frame
import proofs.«130960_g2000402938320646_pallasbulk_333_3_alg».proof.Proof.Gen.KernelIdeal
import proofs.«130960_g2000402938320646_pallasbulk_333_3_alg».proof.Proof.Gen.KernelIdeal.Frame
import proofs.«130960_g2000402938320646_pallasbulk_333_3_alg».proof.Proof.Gen.ReferenceIdeal
import proofs.«130960_g2000402938320646_pallasbulk_333_3_alg».proof.Proof.Gen.Pre_finite_inputs
import proofs.«130960_g2000402938320646_pallasbulk_333_3_alg».proof.Proof.RefFrame
import proofs.«130960_g2000402938320646_pallasbulk_333_3_alg».proof.Proof.KerValue
import proofs.«130960_g2000402938320646_pallasbulk_333_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Hand.frame m ρ

/-- Both runs end with the specification's array of arguments that agree. -/
theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.Val.run_value m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
